-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x200 : Shape := ⟨2, ![32, 200]⟩
abbrev S32x200x200 : Shape := ⟨3, ![32, 200, 200]⟩
abbrev S50000x100 : Shape := ⟨2, ![50000, 100]⟩
abbrev S100x1 : Shape := ⟨2, ![100, 1]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x1 : S_.BroadcastsInDim S100x1 (![] : Fin 0 → Fin S100x1.rank)
  reducesTo_S100x1_S_d0_1 : S100x1.ReducesTo [0, 1] S_

variable [Facts]

def fn_part1 {F : FTy → Type} [FloatOps F] (main_arg7 : FVec F S100x1 .f32) (main_v13 : IVec S_ 1) (main_v16 : IVec S100x1 1) : IVec S_ 1 :=
  let main_c_5 : IVec S_ 1 := constantI S_ 1 1#1
  let main_v17 : IVec S_ 1 := (fun x v => Host.reduce IntOp.andi x v reducesTo_S100x1_S_d0_1 h_S_) main_v16 main_c_5
  let main_v18 : IVec S_ 1 := andi main_v13 main_v17
  let main_v19 : FVec F S100x1 .f32 := Host.absf main_arg7
  let main_cst_6 : FVec F S_ .f32 := constant S_ .f32 0x7F800000#32
  let main_v20 : FVec F S100x1 .f32 := broadcastInDim S100x1 ![] bcast_S_S100x1 main_cst_6
  let main_v21 : IVec S100x1 1 := cmpf .olt main_v19 main_v20
  let main_c_7 : IVec S_ 1 := constantI S_ 1 1#1
  let main_v22 : IVec S_ 1 := (fun x v => Host.reduce IntOp.andi x v reducesTo_S100x1_S_d0_1 h_S_) main_v21 main_c_7
  let main_v23 : IVec S_ 1 := andi main_v18 main_v22
  main_v23

def fn {F : FTy → Type} [FloatOps F] (main_arg0 : IVec S32x200 32) (main_arg1 : IVec S32x200x200 32) (main_arg2 : IVec S32x200 32) (main_arg3 : FVec F S50000x100 .f32) (main_arg4 : FVec F S100x1 .f32) (main_arg5 : FVec F S100x1 .f32) (main_arg6 : FVec F S100x1 .f32) (main_arg7 : FVec F S100x1 .f32) : IVec S_ 1 :=
  let main_v0 : FVec F S50000x100 .f32 := Host.absf main_arg3
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x1 .f32 := Host.absf main_arg4
  let main_cst_0 : FVec F S_ .f32 := constant S_ .f32 0x7F800000#32
  let main_v5 : FVec F S100x1 .f32 := broadcastInDim S100x1 ![] bcast_S_S100x1 main_cst_0
  let main_v6 : IVec S100x1 1 := cmpf .olt main_v4 main_v5
  let main_c_1 : IVec S_ 1 := constantI S_ 1 1#1
  let main_v7 : IVec S_ 1 := (fun x v => Host.reduce IntOp.andi x v reducesTo_S100x1_S_d0_1 h_S_) main_v6 main_c_1
  let main_v8 : IVec S_ 1 := andi main_v3 main_v7
  let main_v9 : FVec F S100x1 .f32 := Host.absf main_arg5
  let main_cst_2 : FVec F S_ .f32 := constant S_ .f32 0x7F800000#32
  let main_v10 : FVec F S100x1 .f32 := broadcastInDim S100x1 ![] bcast_S_S100x1 main_cst_2
  let main_v11 : IVec S100x1 1 := cmpf .olt main_v9 main_v10
  let main_c_3 : IVec S_ 1 := constantI S_ 1 1#1
  let main_v12 : IVec S_ 1 := (fun x v => Host.reduce IntOp.andi x v reducesTo_S100x1_S_d0_1 h_S_) main_v11 main_c_3
  let main_v13 : IVec S_ 1 := andi main_v8 main_v12
  let main_v14 : FVec F S100x1 .f32 := Host.absf main_arg6
  let main_cst_4 : FVec F S_ .f32 := constant S_ .f32 0x7F800000#32
  let main_v15 : FVec F S100x1 .f32 := broadcastInDim S100x1 ![] bcast_S_S100x1 main_cst_4
  let main_v16 : IVec S100x1 1 := cmpf .olt main_v14 main_v15
  fn_part1 (F := F) main_arg7 main_v13 main_v16
-- ==== Kernel.lean ====
abbrev S32x200 : Shape := ⟨2, ![32, 200]⟩
abbrev S32x200x200 : Shape := ⟨3, ![32, 200, 200]⟩
abbrev S50000x100 : Shape := ⟨2, ![50000, 100]⟩
abbrev S100x1 : Shape := ⟨2, ![100, 1]⟩
abbrev S_ : Shape := ⟨0, ![]⟩
abbrev S32x200x1 : Shape := ⟨3, ![32, 200, 1]⟩
abbrev S32x200x100 : Shape := ⟨3, ![32, 200, 100]⟩
abbrev S1x200x100 : Shape := ⟨3, ![1, 200, 100]⟩
abbrev S1x200x200 : Shape := ⟨3, ![1, 200, 200]⟩
abbrev S200x100 : Shape := ⟨2, ![200, 100]⟩
abbrev S200x200 : Shape := ⟨2, ![200, 200]⟩
abbrev S100 : Shape := ⟨1, ![100]⟩
abbrev S1x100 : Shape := ⟨2, ![1, 100]⟩
abbrev S100x200 : Shape := ⟨2, ![100, 200]⟩
abbrev S200 : Shape := ⟨1, ![200]⟩
abbrev S200x1 : Shape := ⟨2, ![200, 1]⟩

abbrev nBuf : Space → Nat
  | .hbm => 18
  | .vmem => 10
  | .smem => 0
  | _ => 0

abbrev bufTy : (tb : Table) → Fin (tcTables nBuf tb) → BufTy
  | .hbm, ⟨0, _⟩ => ⟨S32x200, .i32⟩
  | .hbm, ⟨1, _⟩ => ⟨S32x200x200, .i32⟩
  | .hbm, ⟨2, _⟩ => ⟨S32x200, .i32⟩
  | .hbm, ⟨3, _⟩ => ⟨S50000x100, .f32⟩
  | .hbm, ⟨4, _⟩ => ⟨S100x1, .f32⟩
  | .hbm, ⟨5, _⟩ => ⟨S100x1, .f32⟩
  | .hbm, ⟨6, _⟩ => ⟨S100x1, .f32⟩
  | .hbm, ⟨7, _⟩ => ⟨S100x1, .f32⟩
  | .hbm, ⟨8, _⟩ => ⟨S_, .i32⟩
  | .hbm, ⟨9, _⟩ => ⟨S32x200, .i32⟩
  | .hbm, ⟨10, _⟩ => ⟨S32x200, .i1⟩
  | .hbm, ⟨11, _⟩ => ⟨S_, .i32⟩
  | .hbm, ⟨12, _⟩ => ⟨S32x200, .i32⟩
  | .hbm, ⟨13, _⟩ => ⟨S32x200, .i32⟩
  | .hbm, ⟨14, _⟩ => ⟨S32x200, .i32⟩
  | .hbm, ⟨15, _⟩ => ⟨S32x200x1, .i32⟩
  | .hbm, ⟨16, _⟩ => ⟨S32x200x100, .f32⟩
  | .hbm, ⟨17, _⟩ => ⟨S32x200x100, .f32⟩
  | .local _ .vmem, ⟨0, _⟩ => ⟨S1x200x100, .f32⟩
  | .local _ .vmem, ⟨1, _⟩ => ⟨S1x200x100, .f32⟩
  | .local _ .vmem, ⟨2, _⟩ => ⟨S1x200x200, .i32⟩
  | .local _ .vmem, ⟨3, _⟩ => ⟨S1x200x200, .i32⟩
  | .local _ .vmem, ⟨4, _⟩ => ⟨S100x1, .f32⟩
  | .local _ .vmem, ⟨5, _⟩ => ⟨S100x1, .f32⟩
  | .local _ .vmem, ⟨6, _⟩ => ⟨S100x1, .f32⟩
  | .local _ .vmem, ⟨7, _⟩ => ⟨S100x1, .f32⟩
  | .local _ .vmem, ⟨8, _⟩ => ⟨S1x200x100, .f32⟩
  | .local _ .vmem, ⟨9, _⟩ => ⟨S1x200x100, .f32⟩
  | _, _ => ⟨S32x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x200x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S32x200 : S_.BroadcastsInDim S32x200 (![] : Fin 0 → Fin S32x200.rank)
  bcast_S32x200_S32x200x1_0_1 : S32x200.BroadcastsInDim S32x200x1 (![0, 1] : Fin 2 → Fin S32x200x1.rank)
  inb_S1x200x100_S1x200x100_0_0_0 : ∀ a, (![0, 0, 0] : Fin 3 → Nat) a + S1x200x100.size a ≤ S1x200x100.size a
  h_S1x200x100 : 0 < S1x200x100.numel
  shapeCasts_S1x200x100_S200x100 : S1x200x100.ShapeCasts S200x100
  inb_S1x200x200_S1x200x200_0_0_0 : ∀ a, (![0, 0, 0] : Fin 3 → Nat) a + S1x200x200.size a ≤ S1x200x200.size a
  h_S1x200x200 : 0 < S1x200x200.numel
  shapeCasts_S1x200x200_S200x200 : S1x200x200.ShapeCasts S200x200
  bitsLt_bf16_f32 : FTy.bits .bf16 < FTy.bits .f32
  inb_S100x1_S100x1_0_0 : ∀ a, (![0, 0] : Fin 2 → Nat) a + S100x1.size a ≤ S100x1.size a
  h_S100x1 : 0 < S100x1.numel
  shapeCasts_S100x1_S100 : S100x1.ShapeCasts S100
  shapeCasts_S100_S1x100 : S100.ShapeCasts S1x100
  broadcasts_S1x100_S200x100 : S1x100.Broadcasts S200x100
  transposes_S200x100_p1_0_S100x200 : S200x100.Transposes [1, 0] S100x200
  reduces_S200x200_S200 : S200x200.Reduces [1] S200
  shapeCasts_S200_S200x1 : S200.ShapeCasts S200x1
  broadcasts_S200x1_S200x200 : S200x1.Broadcasts S200x200
  shapeCasts_S200x100_S1x200x100 : S200x100.ShapeCasts S1x200x100
  gather_S50000x100_S32x200x1_S32x200x100_2_0_n_n_0_2_1100_wf : GatherDims.WF S50000x100 S32x200x1 S32x200x100 [2] [0] [] [0] [] 2 ![1, 100]
  dot_S200x100_S100x200_S200x200_1_0_0_1_n_n_wf : DotDims.WF S200x100 S100x200 S200x200 [1] [0] [0] [1] [] []
  dot_S200x200_S200x100_S200x100_1_0_0_1_n_n_wf : DotDims.WF S200x200 S200x100 S200x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x100.size a ≤ S32x200x100.size a
  hwx0_0 : ∀ i : grid0.Coords, EltTy.bits .f32 = 32 ∨ (Rect.block (s := S32x200x100) S1x200x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x200.size a ≤ S32x200x200.size a
  hwx0_1 : ∀ i : grid0.Coords, EltTy.bits .i32 = 32 ∨ (Rect.block (s := S32x200x200) S1x200x200.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x1.size a ≤ S100x1.size a
  hwx0_2 : ∀ i : grid0.Coords, EltTy.bits .f32 = 32 ∨ (Rect.block (s := S100x1) S100x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x1.size a ≤ S100x1.size a
  hwx0_3 : ∀ i : grid0.Coords, EltTy.bits .f32 = 32 ∨ (Rect.block (s := S100x1) S100x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x1.size a ≤ S100x1.size a
  hwx0_4 : ∀ i : grid0.Coords, EltTy.bits .f32 = 32 ∨ (Rect.block (s := S100x1) S100x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x1.size a ≤ S100x1.size a
  hwx0_5 : ∀ i : grid0.Coords, EltTy.bits .f32 = 32 ∨ (Rect.block (s := S100x1) S100x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x200x100.size a ≤ S32x200x100.size a
  hwx0_6 : ∀ i : grid0.Coords, EltTy.bits .f32 = 32 ∨ (Rect.block (s := S32x200x100) S1x200x100.size (cc0_transform_6 i) (hinb0_6 i)).WholeWords (EltTy.packing .f32)

variable [Facts₀]

def gather_S50000x100_S32x200x1_S32x200x100_2_0_n_n_0_2_1100 : GatherDims S50000x100 S32x200x1 S32x200x100 where
  offsetDims := [2]
  collapsedSliceDims := [0]
  operandBatchingDims := []
  startIndicesBatchingDims := []
  startIndexMap := [0]
  indexVectorDim := 2
  sliceSizes := ![1, 100]
  wf := gather_S50000x100_S32x200x1_S32x200x100_2_0_n_n_0_2_1100_wf
def dot_S200x100_S100x200_S200x200_1_0_0_1_n_n : DotDims S200x100 S100x200 S200x200 where
  lhsContracting := [1]
  rhsContracting := [0]
  lhsNonContracting := [0]
  rhsNonContracting := [1]
  lhsBatch := []
  rhsBatch := []
  wf := dot_S200x100_S100x200_S200x200_1_0_0_1_n_n_wf
def dot_S200x200_S200x100_S200x100_1_0_0_1_n_n : DotDims S200x200 S200x100 S200x100 where
  lhsContracting := [1]
  rhsContracting := [0]
  lhsNonContracting := [0]
  rhsNonContracting := [1]
  lhsBatch := []
  rhsBatch := []
  wf := dot_S200x200_S200x100_S200x100_1_0_0_1_n_n_wf

abbrev win0_0 : Pipeline.Window sig grid0 :=
  Pipeline.Window.ofSpec (Memref.whole main_v6) S1x200x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x200x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S100x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S100x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S100x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S100x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x200x100.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x200 : Shape := ⟨2, ![32, 200]⟩
abbrev S32x200x200 : Shape := ⟨3, ![32, 200, 200]⟩
abbrev S50000x100 : Shape := ⟨2, ![50000, 100]⟩
abbrev S100x1 : Shape := ⟨2, ![100, 1]⟩
abbrev S_ : Shape := ⟨0, ![]⟩
abbrev S32x200x1 : Shape := ⟨3, ![32, 200, 1]⟩
abbrev S32x200x100 : Shape := ⟨3, ![32, 200, 100]⟩
abbrev S100 : Shape := ⟨1, ![100]⟩
abbrev S1x1x100 : Shape := ⟨3, ![1, 1, 100]⟩

abbrev nBuf : Space → Nat
  | .hbm => 102
  | .vmem => 0
  | .smem => 0
  | _ => 0

abbrev bufTy : (tb : Table) → Fin (tcTables nBuf tb) → BufTy
  | .hbm, ⟨0, _⟩ => ⟨S32x200, .i32⟩
  | .hbm, ⟨1, _⟩ => ⟨S32x200x200, .i32⟩
  | .hbm, ⟨2, _⟩ => ⟨S32x200, .i32⟩
  | .hbm, ⟨3, _⟩ => ⟨S50000x100, .f32⟩
  | .hbm, ⟨4, _⟩ => ⟨S100x1, .f32⟩
  | .hbm, ⟨5, _⟩ => ⟨S100x1, .f32⟩
  | .hbm, ⟨6, _⟩ => ⟨S100x1, .f32⟩
  | .hbm, ⟨7, _⟩ => ⟨S100x1, .f32⟩
  | .hbm, ⟨8, _⟩ => ⟨S_, .f32⟩
  | .hbm, ⟨9, _⟩ => ⟨S_, .i32⟩
  | .hbm, ⟨10, _⟩ => ⟨S32x200, .i32⟩
  | .hbm, ⟨11, _⟩ => ⟨S32x200, .i1⟩
  | .hbm, ⟨12, _⟩ => ⟨S_, .i32⟩
  | .hbm, ⟨13, _⟩ => ⟨S32x200, .i32⟩
  | .hbm, ⟨14, _⟩ => ⟨S32x200, .i32⟩
  | .hbm, ⟨15, _⟩ => ⟨S32x200, .i32⟩
  | .hbm, ⟨16, _⟩ => ⟨S32x200x1, .i32⟩
  | .hbm, ⟨17, _⟩ => ⟨S32x200x100, .f32⟩
  | .hbm, ⟨18, _⟩ => ⟨S100, .f32⟩
  | .hbm, ⟨19, _⟩ => ⟨S1x1x100, .f32⟩
  | .hbm, ⟨20, _⟩ => ⟨S32x200x100, .f32⟩
  | .hbm, ⟨21, _⟩ => ⟨S32x200x100, .f32⟩
  | .hbm, ⟨22, _⟩ => ⟨S32x200x200, .f32⟩
  | .hbm, ⟨23, _⟩ => ⟨S_, .f32⟩
  | .hbm, ⟨24, _⟩ => ⟨S_, .f32⟩
  | .hbm, ⟨25, _⟩ => ⟨S32x200x200, .f32⟩
  | .hbm, ⟨26, _⟩ => ⟨S32x200x200, .i1⟩
  | .hbm, ⟨27, _⟩ => ⟨S_, .f32⟩
  | .hbm, ⟨28, _⟩ => ⟨S32x200x200, .f32⟩
  | .hbm, ⟨29, _⟩ => ⟨S32x200x200, .f32⟩
  | .hbm, ⟨30, _⟩ => ⟨S32x200x200, .f32⟩
  | .hbm, ⟨31, _⟩ => ⟨S100, .f32⟩
  | .hbm, ⟨32, _⟩ => ⟨S1x1x100, .f32⟩
  | .hbm, ⟨33, _⟩ => ⟨S32x200x100, .f32⟩
  | .hbm, ⟨34, _⟩ => ⟨S32x200x100, .f32⟩
  | .hbm, ⟨35, _⟩ => ⟨S32x200x200, .f32⟩
  | .hbm, ⟨36, _⟩ => ⟨S_, .f32⟩
  | .hbm, ⟨37, _⟩ => ⟨S_, .f32⟩
  | .hbm, ⟨38, _⟩ => ⟨S32x200x200, .f32⟩
  | .hbm, ⟨39, _⟩ => ⟨S32x200x200, .i1⟩
  | .hbm, ⟨40, _⟩ => ⟨S_, .f32⟩
  | .hbm, ⟨41, _⟩ => ⟨S32x200x200, .f32⟩
  | .hbm, ⟨42, _⟩ => ⟨S32x200x200, .f32⟩
  | .hbm, ⟨43, _⟩ => ⟨S32x200x200, .f32⟩
  | .hbm, ⟨44, _⟩ => ⟨S100, .f32⟩
  | .hbm, ⟨45, _⟩ => ⟨S1x1x100, .f32⟩
  | .hbm, ⟨46, _⟩ => ⟨S32x200x100, .f32⟩
  | .hbm, ⟨47, _⟩ => ⟨S32x200x100, .f32⟩
  | .hbm, ⟨48, _⟩ => ⟨S32x200x200, .f32⟩
  | .hbm, ⟨49, _⟩ => ⟨S_, .f32⟩
  | .hbm, ⟨50, _⟩ => ⟨S_, .f32⟩
  | .hbm, ⟨51, _⟩ => ⟨S32x200x200, .f32⟩
  | .hbm, ⟨52, _⟩ => ⟨S32x200x200, .i1⟩
  | .hbm, ⟨53, _⟩ => ⟨S_, .f32⟩
  | .hbm, ⟨54, _⟩ => ⟨S32x200x200, .f32⟩
  | .hbm, ⟨55, _⟩ => ⟨S32x200x200, .f32⟩
  | .hbm, ⟨56, _⟩ => ⟨S32x200x200, .f32⟩
  | .hbm, ⟨57, _⟩ => ⟨S100, .f32⟩
  | .hbm, ⟨58, _⟩ => ⟨S1x1x100, .f32⟩
  | .hbm, ⟨59, _⟩ => ⟨S32x200x100, .f32⟩
  | .hbm, ⟨60, _⟩ => ⟨S32x200x100, .f32⟩
  | .hbm, ⟨61, _⟩ => ⟨S32x200x200, .f32⟩
  | .hbm, ⟨62, _⟩ => ⟨S_, .f32⟩
  | .hbm, ⟨63, _⟩ => ⟨S_, .f32⟩
  | .hbm, ⟨64, _⟩ => ⟨S32x200x200, .f32⟩
  | .hbm, ⟨65, _⟩ => ⟨S32x200x200, .i1⟩
  | .hbm, ⟨66, _⟩ => ⟨S_, .f32⟩
  | .hbm, ⟨67, _⟩ => ⟨S32x200x200, .f32⟩
  | .hbm, ⟨68, _⟩ => ⟨S32x200x200, .f32⟩
  | .hbm, ⟨69, _⟩ => ⟨S32x200x200, .f32⟩
  | .hbm, ⟨70, _⟩ => ⟨S_, .i32⟩
  | .hbm, ⟨71, _⟩ => ⟨S32x200x200, .i32⟩
  | .hbm, ⟨72, _⟩ => ⟨S32x200x200, .i1⟩
  | .hbm, ⟨73, _⟩ => ⟨S32x200x200, .f32⟩
  | .hbm, ⟨74, _⟩ => ⟨S32x200x200, .f32⟩
  | .hbm, ⟨75, _⟩ => ⟨S_, .i32⟩
  | .hbm, ⟨76, _⟩ => ⟨S32x200x200, .i32⟩
  | .hbm, ⟨77, _⟩ => ⟨S32x200x200, .i1⟩
  | .hbm, ⟨78, _⟩ => ⟨S32x200x200, .f32⟩
  | .hbm, ⟨79, _⟩ => ⟨S_, .i32⟩
  | .hbm, ⟨80, _⟩ => ⟨S32x200x200, .i32⟩
  | .hbm, ⟨81, _⟩ => ⟨S32x200x200, .i1⟩
  | .hbm, ⟨82, _⟩ => ⟨S32x200x200, .f32⟩
  | .hbm, ⟨83, _⟩ => ⟨S_, .i32⟩
  | .hbm, ⟨84, _⟩ => ⟨S32x200x200, .i32⟩
  | .hbm, ⟨85, _⟩ => ⟨S32x200x200, .i1⟩
  | .hbm, ⟨86, _⟩ => ⟨S32x200x200, .f32⟩
  | .hbm, ⟨87, _⟩ => ⟨S_, .f32⟩
  | .hbm, ⟨88, _⟩ => ⟨S32x200, .f32⟩
  | .hbm, ⟨89, _⟩ => ⟨S_, .f32⟩
  | .hbm, ⟨90, _⟩ => ⟨S32x200, .f32⟩
  | .hbm, ⟨91, _⟩ => ⟨S32x200, .f32⟩
  | .hbm, ⟨92, _⟩ => ⟨S32x200x1, .f32⟩
  | .hbm, ⟨93, _⟩ => ⟨S32x200x200, .f32⟩
  | .hbm, ⟨94, _⟩ => ⟨S32x200x200, .f32⟩
  | .hbm, ⟨95, _⟩ => ⟨S32x200x200, .f32⟩
  | .hbm, ⟨96, _⟩ => ⟨S_, .f32⟩
  | .hbm, ⟨97, _⟩ => ⟨S32x200, .f32⟩
  | .hbm, ⟨98, _⟩ => ⟨S32x200x1, .f32⟩
  | .hbm, ⟨99, _⟩ => ⟨S32x200x200, .f32⟩
  | .hbm, ⟨100, _⟩ => ⟨S32x200x200, .f32⟩
  | .hbm, ⟨101, _⟩ => ⟨S32x200x100, .f32⟩
  | _, _ => ⟨S32x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_call3_cst : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v30 : Ref sig .tc := ⟨.hbm, 69, rfl⟩
abbrev main_c_5 : Ref sig .tc := ⟨.hbm, 70, rfl⟩
abbrev main_v31 : Ref sig .tc := ⟨.hbm, 71, rfl⟩
abbrev main_v32 : Ref sig .tc := ⟨.hbm, 72, rfl⟩
abbrev main_call4_v0 : Ref sig .tc := ⟨.hbm, 73, rfl⟩
abbrev main_v33 : Ref sig .tc := ⟨.hbm, 74, rfl⟩
abbrev main_c_6 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_7 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_c_8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_9 : Ref sig .tc := ⟨.hbm, 87, rfl⟩
abbrev main_v43 : Ref sig .tc := ⟨.hbm, 88, rfl⟩
abbrev main_cst_10 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_11 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩

abbrev nD : Nat := 1
abbrev τ : Topo := Topo.v7x

variable {F : FTy → Type} [FloatOps F]

class Facts₀ : Prop where
  bcast_S_S32x200 : S_.BroadcastsInDim S32x200 (![] : Fin 0 → Fin S32x200.rank)
  bcast_S32x200_S32x200x1_0_1 : S32x200.BroadcastsInDim S32x200x1 (![0, 1] : Fin 2 → Fin S32x200x1.rank)
  shapeCasts_S100x1_S100 : S100x1.ShapeCasts S100
  bcast_S100_S1x1x100_2 : S100.BroadcastsInDim S1x1x100 (![2] : Fin 1 → Fin S1x1x100.rank)
  bcast_S1x1x100_S32x200x100_0_1_2 : S1x1x100.BroadcastsInDim S32x200x100 (![0, 1, 2] : Fin 3 → Fin S32x200x100.rank)
  bcast_S_S32x200x200 : S_.BroadcastsInDim S32x200x200 (![] : Fin 0 → Fin S32x200x200.rank)
  reducesTo_S32x200x200_S32x200_d2 : S32x200x200.ReducesTo [2] S32x200
  h_S_ : 0 < S_.numel
  bcast_S32x200x1_S32x200x200_0_1_2 : S32x200x1.BroadcastsInDim S32x200x200 (![0, 1, 2] : Fin 3 → Fin S32x200x200.rank)
  gather_S50000x100_S32x200x1_S32x200x100_2_0_n_n_0_2_1100_wf : GatherDims.WF S50000x100 S32x200x1 S32x200x100 [2] [0] [] [0] [] 2 ![1, 100]
  dot_S32x200x100_S32x200x100_S32x200x200_2_2_1_1_0_0_wf : DotDims.WF S32x200x100 S32x200x100 S32x200x200 [2] [2] [1] [1] [0] [0]
  dot_S32x200x200_S32x200x100_S32x200x100_2_1_1_2_0_0_wf : DotDims.WF S32x200x200 S32x200x100 S32x200x100 [2] [1] [1] [2] [0] [0]

variable [Facts₀]

def gather_S50000x100_S32x200x1_S32x200x100_2_0_n_n_0_2_1100 : GatherDims S50000x100 S32x200x1 S32x200x100 where
  offsetDims := [2]
  collapsedSliceDims := [0]
  operandBatchingDims := []
  startIndicesBatchingDims := []
  startIndexMap := [0]
  indexVectorDim := 2
  sliceSizes := ![1, 100]
  wf := gather_S50000x100_S32x200x1_S32x200x100_2_0_n_n_0_2_1100_wf
def dot_S32x200x100_S32x200x100_S32x200x200_2_2_1_1_0_0 : DotDims S32x200x100 S32x200x100 S32x200x200 where
  lhsContracting := [2]
  rhsContracting := [2]
  lhsNonContracting := [1]
  rhsNonContracting := [1]
  lhsBatch := [0]
  rhsBatch := [0]
  wf := dot_S32x200x100_S32x200x100_S32x200x200_2_2_1_1_0_0_wf
def dot_S32x200x200_S32x200x100_S32x200x100_2_1_1_2_0_0 : DotDims S32x200x200 S32x200x100 S32x200x100 where
  lhsContracting := [2]
  rhsContracting := [1]
  lhsNonContracting := [1]
  rhsNonContracting := [2]
  lhsBatch := [0]
  rhsBatch := [0]
  wf := dot_S32x200x200_S32x200x100_S32x200x100_2_1_1_2_0_0_wf

class Facts : Prop extends Facts₀ where

variable [Facts]
-- ==== Proof.KerCore.lean ====
/-
  The kernel body's arithmetic as named stages over one block, at any float instance: from the block's
  rows `v1` (N × D), its edge types `v3` (N × N) and the four weight columns, the four edge scores
  (a matrix product against the transposed rows), the leaky ReLU, the choice by edge type, the row
  softmax and the weighted sum of rows, in the body's own spelling.  `body_eq` says the body's one
  stored value is their composition.
-/
import proofs.«171213_j84241488544091_1_alg».proof.Proof.Gen.KernelIdeal.Skeleton

noncomputable section

namespace Cert.KerCore

open Cert.KernelIdeal Cert.KernelIdeal.Gen Idealize.ShloMosaic

variable {F : FTy → Type} [FloatOps F]

/-- A weight column laid along the feature axis of every row. -/
def kWeightRows (a : Vec F S100x1 .f32) : FVec F S200x100 .f32 :=
  broadcastTo S200x100 (shapeCast S1x100 (shapeCast S100 a shapeCasts_S100x1_S100) shapeCasts_S100_S1x100)
    broadcasts_S1x100_S200x100

/-- The edge scores: the weighted rows times the transposed rows, into a zero accumulator. -/
def kScore (v1 : FVec F S200x100 .f32) (a : Vec F S100x1 .f32) : FVec F S200x200 .f32 :=
  matmul dot_S200x100_S100x200_S200x200_1_0_0_1_n_n none
    (truncf .bf16 (mulf v1 (kWeightRows a)) bitsLt_bf16_f32)
    (transpose S100x200 [1, 0] (truncf .bf16 v1 bitsLt_bf16_f32) transposes_S200x100_p1_0_S100x200)
    (constant S200x200 .f32 0x00000000#32)

/-- Leaky ReLU, the slope passed as the body passes it. -/
def kLeaky (c : F .f32) (s : FVec F S200x200 .f32) : FVec F S200x200 .f32 :=
  select (cmpf .oge s (broadcast S200x200 (Scalar.ofBits .f32 0x00000000#32))) s (mulf (broadcast S200x200 c) s)

/-- The score of each edge's type, the finite fill elsewhere. -/
def kPick (v3 : IVec S200x200 32) (e0 e1 e2 e3 : FVec F S200x200 .f32) : FVec F S200x200 .f32 :=
  select (cmpi .eq v3 (broadcast S200x200 4#32)) e3
    (select (cmpi .eq v3 (broadcast S200x200 3#32)) e2
      (select (cmpi .eq v3 (broadcast S200x200 2#32)) e1
        (select (cmpi .eq v3 (broadcast S200x200 1#32)) e0
          (broadcast S200x200 (Scalar.ofBits .f32 0xD9FFCB9E#32)))))

/-- A per-row value copied along its row. -/
def kAlongRow (x : FVec F S200 .f32) : FVec F S200x200 .f32 :=
  broadcastTo S200x200 (shapeCast S200x1 x shapeCasts_S200_S200x1) broadcasts_S200x1_S200x200

/-- Each row's maximum. -/
def kRowMax (al : FVec F S200x200 .f32) : FVec F S200 .f32 :=
  maximumf (broadcast S200 (Scalar.ofBits .f32 0xFF800000#32))
    (multiReduction .maximumf [1] S200 al 0xFF800000#32 reduces_S200x200_S200 (.inl rfl) rfl)

/-- The shifted exponentials. -/
def kExpShift (al : FVec F S200x200 .f32) : FVec F S200x200 .f32 := exp (subf al (kAlongRow (kRowMax al)))

/-- Each row divided by its sum. -/
def kNormalize (u : FVec F S200x200 .f32) : FVec F S200x200 .f32 :=
  divf u (kAlongRow (multiReduction .add [1] S200 u 0x00000000#32 reduces_S200x200_S200 (.inl rfl) rfl))

/-- The weighted sums of rows, into a zero accumulator. -/
def kAggregate (p : FVec F S200x200 .f32) (v1 : FVec F S200x100 .f32) : FVec F S200x100 .f32 :=
  matmul dot_S200x200_S200x100_S200x100_1_0_0_1_n_n none (truncf .bf16 p bitsLt_bf16_f32)
    (truncf .bf16 v1 bitsLt_bf16_f32) (constant S200x100 .f32 0x00000000#32)

/-- Everything the body computes from the rows, the edge types and the weights. -/
def kCore (v1 : FVec F S200x100 .f32) (v3 : IVec S200x200 32) (a0 a1 a2 a3 : Vec F S100x1 .f32) :
    FVec F S200x100 .f32 :=
  kAggregate (kNormalize (kExpShift (kPick v3
    (kLeaky (Scalar.ofBits .f32 0x3E4CCCCD#32) (kScore v1 a0)) (kLeaky (Scalar.ofBits .f32 0x3E4CCCCD#32) (kScore v1 a1))
    (kLeaky (Scalar.ofBits .f32 0x3E4CCCCD#32) (kScore v1 a2)) (kLeaky (Scalar.ofBits .f32 0x3E4CCCCD#32) (kScore v1 a3))))) v1

/-- The body's stored value is the stages' composition of the loaded blocks. -/
theorem body_eq (x0 : Vec F S1x200x100 .f32) (x1 : Vec F S1x200x200 .i32) (a0 a1 a2 a3 : Vec F S100x1 .f32) :
    k0_pay8 (k0_pay2 x0) (k0_pay3 x1) (k0_pay4 x0) (k0_pay5 x0 a0) (k0_pay6 x0 a1) (k0_pay7 x0 a2)
        (Scalar.ofBits .f32 0x3E4CCCCD#32) a3
      = kCore (k0_pay2 x0) (k0_pay3 x1) a0 a1 a2 a3 := rfl

end Cert.KerCore

end
-- ==== Proof.Spec.lean ====
/-
  The mathematics both programs compute, on plain functions of coordinates (no arrays, no shapes).
  For one batch member with embedding rows `H i d` (N × D), edge types `A i j` (N × N) and four weight
  vectors `w d`:

    score   s_k i j = Σ_d (H i d · w_k d) · H j d
    leaky   e_k i j = s_k i j            if s_k i j ≥ 0,   0.2 · s_k i j  otherwise
    pick    α i j   = e_3 if A = 4, else e_2 if A = 3, else e_1 if A = 2, else e_0 if A = 1, else −9·10¹⁵
    max     μ i     = max (−∞) (max_j α i j)
    exp     u i j   = exp (α i j − μ i)
    norm    p i j   = u i j / Σ_j' u i j'
    agg     o i d   = Σ_j p i j · H j d

  Every operation is the exact one on the extended reals; the constants are kept as the bit patterns both
  programs spell, so nothing is ever evaluated.  `rd2`, `rd3`, `rd1`, `col` read an array of a literal
  shape as such a function of coordinates.
-/
import Idealize.ShloMosaic.PureOps.Ideal
import Idealize.ShloMosaic.Lib.ValueIdx

noncomputable section

namespace Cert.Spec

open Idealize.ShloMosaic Idealize.ShloMosaic.ValueIdx

variable {α : Type} {G m n k : Nat}

/-- A rank-2 array as a function of its two coordinates. -/
def rd2 (x : (⟨2, ![m, n]⟩ : Shape).Idx → α) : Fin m → Fin n → α := fun i j => x (ix2 i j)
/-- Member `g` of a stack of matrices as a function of the matrix coordinates. -/
def rd3 (g : Fin G) (x : (⟨3, ![G, m, n]⟩ : Shape).Idx → α) : Fin m → Fin n → α := fun i j => x (ix3 g i j)
/-- A rank-1 array as a function of its coordinate. -/
def rd1 (x : (⟨1, ![m]⟩ : Shape).Idx → α) : Fin m → α := fun i => x (ix1 i)
/-- Row `g` of a stack of vectors. -/
def rd2row (g : Fin G) (x : (⟨2, ![G, m]⟩ : Shape).Idx → α) : Fin m → α := fun i => x (ix2 g i)
/-- A one-column matrix as a function of its row coordinate. -/
def col (x : (⟨2, ![m, 1]⟩ : Shape).Idx → α) : Fin m → α := fun d => x (ix2 d (0 : Fin 1))

/-- The edge score: rows `i` and `j` of `H` contracted against the weights. -/
def sScore (H : Fin m → Fin k → EReal) (w : Fin k → EReal) : Fin m → Fin m → EReal :=
  fun i j => ∑ d : Fin k, (H i d * w d) * H j d

/-- Leaky ReLU with slope 0.2 (the f32 word both programs spell). -/
def sLeaky (s : Fin m → Fin n → EReal) : Fin m → Fin n → EReal := fun i j =>
  Scalar.select (Ideal.cmp .oge (s i j) (Ideal.ofBits .f32 0x00000000#32)) (s i j)
    (Ideal.ofBits .f32 0x3E4CCCCD#32 * s i j)

/-- The score of the edge's type, the finite fill where the edge has none of the four types. -/
def sPick (A : Fin m → Fin n → BitVec 32) (e0 e1 e2 e3 : Fin m → Fin n → EReal) : Fin m → Fin n → EReal := fun i j =>
  Scalar.select (IntOp.cmpi .eq (A i j) 4#32) (e3 i j)
    (Scalar.select (IntOp.cmpi .eq (A i j) 3#32) (e2 i j)
      (Scalar.select (IntOp.cmpi .eq (A i j) 2#32) (e1 i j)
        (Scalar.select (IntOp.cmpi .eq (A i j) 1#32) (e0 i j) (Ideal.ofBits .f32 0xD9FFCB9E#32))))

/-- A row's maximum, taken from −∞ and joined with −∞ once more (as both programs do). -/
def sMax (a : Fin m → Fin n → EReal) : Fin m → EReal := fun i =>
  max (Ideal.ofBits .f32 0xFF800000#32)
    ((Finset.univ : Finset (Fin n)).fold max (Ideal.ofBits .f32 0xFF800000#32) (a i))

/-- The shifted exponentials of a row. -/
def sExp (a : Fin m → Fin n → EReal) : Fin m → Fin n → EReal := fun i j => Ideal.exp (a i j - sMax a i)

/-- A row divided by its sum. -/
def sNorm (u : Fin m → Fin n → EReal) : Fin m → Fin n → EReal := fun i j => Ideal.div (u i j) (∑ j' : Fin n, u i j')

/-- The weighted sum of the rows of `H`. -/
def sAgg (p : Fin m → Fin n → EReal) (H : Fin n → Fin k → EReal) : Fin m → Fin k → EReal :=
  fun i d => ∑ j : Fin n, p i j * H j d

/-- One batch member's result. -/
def sOut (H : Fin m → Fin k → EReal) (A : Fin m → Fin m → BitVec 32) (w0 w1 w2 w3 : Fin k → EReal) :
    Fin m → Fin k → EReal :=
  sAgg (sNorm (sExp (sPick A (sLeaky (sScore H w0)) (sLeaky (sScore H w1)) (sLeaky (sScore H w2))
    (sLeaky (sScore H w3))))) H

end Cert.Spec

end
-- ==== Proof.KerReadDot.lean ====
/-
  The kernel body's two matrix products and its weight broadcast read at an index: as functions of the
  matrix coordinates they are the plain sums of `Cert.Spec`.  At the ideal values, where narrowing to bf16
  is the identity and a matrix product into a zero accumulator is the sum of products over the contracted
  coordinate; the first product's right operand is the transposed block, so it contracts rows against rows.
-/
import proofs.«171213_j84241488544091_1_alg».proof.Proof.KerCore
import proofs.«171213_j84241488544091_1_alg».proof.Proof.Spec
import Idealize.ShloMosaic.PureOps.Ideal.Laws
import Idealize.ShloMosaic.Lib.Pipeline.Value

noncomputable section

namespace Cert.KerRead

open Cert.KernelIdeal Cert.KernelIdeal.Gen Cert.KerCore Cert.Spec
open Idealize.ShloMosaic Idealize.ShloMosaic.ValueIdx

/-- The weight rows at row `i`, feature `d`: the broadcast along the rows reads the single row of the
    1 × 100 array at column `d`; that array and the length-100 array between the two reshapes hold the
    column's entries in the same row-major order, position `d` in each, so the entry is the column's at `(d, 0)`. -/
private theorem kWeightRows_at (a : Vec Ideal S100x1 .f32) (i : Fin 200) (d : Fin 100) :
    kWeightRows a (ix2 i d) = a (ix2 d (0 : Fin 1)) := by
  unfold kWeightRows
  refine (broadcastTo_apply _ broadcasts_S1x100_S200x100 (ix2 i d) (ix2 (0 : Fin 1) d) ?_).trans ?_
  · intro ax
    match ax with
    | ⟨0, _⟩ => rfl
    | ⟨1, _⟩ => rfl
  refine (shapeCast_apply _ shapeCasts_S100_S1x100 (ix2 (0 : Fin 1) d) (ix1 d) ?_).trans ?_
  · rw [Shape.rowMajor_val_one, Shape.rowMajor_val_two]
    show d.val = 0 * 100 + d.val
    omega
  refine shapeCast_apply _ shapeCasts_S100x1_S100 (ix1 d) (ix2 d (0 : Fin 1)) ?_
  rw [Shape.rowMajor_val_one, Shape.rowMajor_val_two]
  show d.val * 1 + 0 = d.val
  omega

/-- A weight column laid along every row: entry `d` of the column at feature `d`. -/
theorem kWeightRows_rd (a : Vec Ideal S100x1 .f32) :
    rd2 (kWeightRows a) = fun (_ : Fin 200) (d : Fin 100) => col a d := by
  funext i d
  exact kWeightRows_at a i d

/-- The product of the weighted rows with the transposed rows is the contraction over the feature axis. -/
theorem kScore_rd (v1 : FVec Ideal S200x100 .f32) (a : Vec Ideal S100x1 .f32) :
    rd2 (kScore v1 a) = sScore (rd2 v1) (col a) := by
  funext i j
  show kScore v1 a (ix2 i j) = ∑ d : Fin 100, (v1 (ix2 i d) * a (ix2 d (0 : Fin 1))) * v1 (ix2 j d)
  unfold kScore
  simp only [matmul]
  -- into the zero accumulator the product at (i, j) is the sum over the one contracted axis, of extent 100
  rw [Ideal.matmul_constant_zero_apply,
    ← Equiv.sum_comp (contrEquiv1 dot_S200x100_S100x200_S200x200_1_0_0_1_n_n 100 rfl rfl).symm]
  refine Finset.sum_congr rfl fun c _ => ?_
  have c2 := contrEquiv1_symm_val dot_S200x100_S100x200_S200x200_1_0_0_1_n_n 100 rfl rfl c
  -- the left operand is read at (i, c), the right one at (c, j)
  have l2 : dot_S200x100_S100x200_S200x200_1_0_0_1_n_n.lhsIdx (ix2 i j)
      ((contrEquiv1 dot_S200x100_S100x200_S200x200_1_0_0_1_n_n 100 rfl rfl).symm c) = ix2 i c := by
    funext ax; apply Fin.ext
    match ax with
    | ⟨0, _⟩ => simp [DotDims.lhsIdx, dot_S200x100_S100x200_S200x200_1_0_0_1_n_n]; rfl
    | ⟨1, _⟩ => simp [DotDims.lhsIdx, dot_S200x100_S100x200_S200x200_1_0_0_1_n_n]; exact c2
  have r2 : dot_S200x100_S100x200_S200x200_1_0_0_1_n_n.rhsIdx (ix2 i j)
      ((contrEquiv1 dot_S200x100_S100x200_S200x200_1_0_0_1_n_n 100 rfl rfl).symm c) = ix2 c j := by
    funext ax; apply Fin.ext
    match ax with
    | ⟨0, _⟩ => simp [DotDims.rhsIdx, dot_S200x100_S100x200_S200x200_1_0_0_1_n_n]; exact c2
    | ⟨1, _⟩ => simp [DotDims.rhsIdx, dot_S200x100_S100x200_S200x200_1_0_0_1_n_n]; rfl
  rw [l2, r2]
  -- the transposed rows at (c, j) are the rows at (j, c); narrowing is the identity at the ideal values
  have ht : transpose S100x200 [1, 0] (truncf (F := Ideal) .bf16 v1 bitsLt_bf16_f32)
      transposes_S200x100_p1_0_S100x200 (ix2 c j) = v1 (ix2 j c) := by
    refine (transpose_apply _ _ transposes_S200x100_p1_0_S100x200 (ix2 c j) (ix2 j c) ?_).trans rfl
    intro b
    match b with
    | ⟨0, _⟩ => rfl
    | ⟨1, _⟩ => rfl
  rw [ht]
  show (v1 (ix2 i c) * kWeightRows a (ix2 i c)) * v1 (ix2 j c) = _
  rw [kWeightRows_at]

/-- The product of the weights with the rows. -/
theorem kAggregate_rd (p : FVec Ideal S200x200 .f32) (v1 : FVec Ideal S200x100 .f32) :
    rd2 (kAggregate p v1) = sAgg (rd2 p) (rd2 v1) := by
  funext i d
  show kAggregate p v1 (ix2 i d) = ∑ j : Fin 200, p (ix2 i j) * v1 (ix2 j d)
  unfold kAggregate
  simp only [matmul]
  -- into the zero accumulator the product at (i, d) is the sum over the one contracted axis, of extent 200
  rw [Ideal.matmul_constant_zero_apply,
    ← Equiv.sum_comp (contrEquiv1 dot_S200x200_S200x100_S200x100_1_0_0_1_n_n 200 rfl rfl).symm]
  refine Finset.sum_congr rfl fun c _ => ?_
  have c2 := contrEquiv1_symm_val dot_S200x200_S200x100_S200x100_1_0_0_1_n_n 200 rfl rfl c
  -- the weights are read at (i, c), the rows at (c, d)
  have l2 : dot_S200x200_S200x100_S200x100_1_0_0_1_n_n.lhsIdx (ix2 i d)
      ((contrEquiv1 dot_S200x200_S200x100_S200x100_1_0_0_1_n_n 200 rfl rfl).symm c) = ix2 i c := by
    funext ax; apply Fin.ext
    match ax with
    | ⟨0, _⟩ => simp [DotDims.lhsIdx, dot_S200x200_S200x100_S200x100_1_0_0_1_n_n]; rfl
    | ⟨1, _⟩ => simp [DotDims.lhsIdx, dot_S200x200_S200x100_S200x100_1_0_0_1_n_n]; exact c2
  have r2 : dot_S200x200_S200x100_S200x100_1_0_0_1_n_n.rhsIdx (ix2 i d)
      ((contrEquiv1 dot_S200x200_S200x100_S200x100_1_0_0_1_n_n 200 rfl rfl).symm c) = ix2 c d := by
    funext ax; apply Fin.ext
    match ax with
    | ⟨0, _⟩ => simp [DotDims.rhsIdx, dot_S200x200_S200x100_S200x100_1_0_0_1_n_n]; exact c2
    | ⟨1, _⟩ => simp [DotDims.rhsIdx, dot_S200x200_S200x100_S200x100_1_0_0_1_n_n]; rfl
  rw [l2, r2]
  -- narrowing both operands is the identity at the ideal values
  rfl

end Cert.KerRead

end
-- ==== Proof.KerRead.lean ====
/-
  The kernel body's stages read at an index: each stage of `Cert.KerCore`, read as a function of the
  matrix coordinates, is the corresponding plain function of `Cert.Spec` of the operands so read.  At the
  ideal values.
-/
import proofs.«171213_j84241488544091_1_alg».proof.Proof.KerCore
import proofs.«171213_j84241488544091_1_alg».proof.Proof.Spec
import proofs.«171213_j84241488544091_1_alg».proof.Proof.KerReadDot
import Idealize.ShloMosaic.PureOps.Ideal.Laws
import Idealize.ShloMosaic.Lib.Pipeline.Value

noncomputable section

namespace Cert.KerRead

open Cert.KernelIdeal Cert.KernelIdeal.Gen Cert.KerCore Cert.Spec
open Idealize.ShloMosaic Idealize.ShloMosaic.ValueIdx

theorem kLeaky_rd (s : FVec Ideal S200x200 .f32) :
    rd2 (kLeaky (Scalar.ofBits .f32 0x3E4CCCCD#32) s) = sLeaky (rd2 s) := by
  funext i j
  rfl

theorem kPick_rd (v3 : IVec S200x200 32) (e0 e1 e2 e3 : FVec Ideal S200x200 .f32) :
    rd2 (kPick v3 e0 e1 e2 e3) = sPick (rd2 v3) (rd2 e0) (rd2 e1) (rd2 e2) (rd2 e3) := by
  funext i j
  rfl

/-- A per-row value copied along its row reads as that value. -/
theorem kAlongRow_rd (x : FVec Ideal S200 .f32) :
    rd2 (kAlongRow x) = fun (i : Fin 200) (_ : Fin 200) => rd1 x i := by
  funext i j
  -- the copy along the row reads the column vector at (i, 0) …
  refine (broadcastTo_apply (shapeCast S200x1 x shapeCasts_S200_S200x1) broadcasts_S200x1_S200x200
    (ix2 i j) (ix2 i (0 : Fin 1)) ?_).trans ?_
  · intro a
    match a with
    | ⟨0, _⟩ => rfl
    | ⟨1, _⟩ => rfl
  -- … and the column vector at (i, 0) is the vector at i: both sit at row-major position i.
  · refine shapeCast_apply x shapeCasts_S200_S200x1 (ix2 i (0 : Fin 1)) (ix1 i) ?_
    rw [Shape.rowMajor_val_one, Shape.rowMajor_val_two]
    show i.val = i.val * 1 + 0
    omega

/-- The index a reduction over the lane axis inserts at row `i`, lane `k`, is (i, k). -/
private theorem lift_lane (i : Fin 200) (k : Fin 200) :
    reduces_S200x200_S200.lift (ix1 i) k = ix2 i k := by
  funext a
  apply Fin.ext
  match a with
  | ⟨0, _⟩ => rfl
  | ⟨1, _⟩ => rfl

/-- The lane maximum is the fold of `max` over the row. -/
theorem kRowMax_rd (al : FVec Ideal S200x200 .f32) : rd1 (kRowMax al) = sMax (rd2 al) := by
  funext i
  refine (congrArg (max (Ideal.ofBits .f32 0xFF800000#32))
    (Ideal.multiReduction_maximumf_single al 0xFF800000#32 reduces_S200x200_S200 (.inl rfl) rfl (ix1 i))).trans ?_
  have hrow : al ∘ reduces_S200x200_S200.lift (ix1 i) = rd2 al i := by
    funext k
    exact congrArg al (lift_lane i k)
  rw [hrow]
  rfl

theorem kExpShift_rd (al : FVec Ideal S200x200 .f32) : rd2 (kExpShift al) = sExp (rd2 al) := by
  funext i j
  show Ideal.exp (al (ix2 i j) - rd2 (kAlongRow (kRowMax al)) i j) = _
  rw [kAlongRow_rd, kRowMax_rd]
  rfl

/-- The lane sum at row `i` is the sum of the row's entries. -/
private theorem rowSum_rd (u : FVec Ideal S200x200 .f32) :
    rd1 (multiReduction (F := Ideal) .add [1] S200 u 0x00000000#32 reduces_S200x200_S200 (.inl rfl) rfl)
      = fun i => ∑ j' : Fin 200, rd2 u i j' := by
  funext i
  refine (Ideal.multiReduction_add_single u 0x00000000#32 reduces_S200x200_S200 (.inl rfl) rfl (ix1 i)).trans ?_
  exact Finset.sum_congr rfl fun k _ => congrArg u (lift_lane i k)

/-- The lane sum is the row's sum. -/
theorem kNormalize_rd (u : FVec Ideal S200x200 .f32) : rd2 (kNormalize u) = sNorm (rd2 u) := by
  funext i j
  show Ideal.div (u (ix2 i j)) (rd2 (kAlongRow
    (multiReduction (F := Ideal) .add [1] S200 u 0x00000000#32 reduces_S200x200_S200 (.inl rfl) rfl)) i j) = _
  rw [kAlongRow_rd, rowSum_rd]
  rfl

/-- The body's value is the specification of its block's rows, edge types and the weights. -/
theorem kCore_rd (v1 : FVec Ideal S200x100 .f32) (v3 : IVec S200x200 32) (a0 a1 a2 a3 : Vec Ideal S100x1 .f32) :
    rd2 (kCore v1 v3 a0 a1 a2 a3) = sOut (rd2 v1) (rd2 v3) (col a0) (col a1) (col a2) (col a3) := by
  unfold kCore sOut
  rw [kAggregate_rd, kNormalize_rd, kExpShift_rd, kPick_rd, kLeaky_rd, kLeaky_rd, kLeaky_rd, kLeaky_rd,
    kScore_rd, kScore_rd, kScore_rd, kScore_rd]

end Cert.KerRead

end
-- ==== Proof.RefCore.lean ====
/-
  The reference's computation as named stages over whole arrays, at any float instance: the embedding
  rows gathered by index, and from them, for every batch member at once, the four edge scores, the
  leaky ReLU, the choice by edge type, the row softmax (maximum, shifted exponentials, division by the
  row sum) and the weighted sum of rows.  Each stage is the composition of the host operations the
  program applies, in the program's own spelling, so that the program's run ends at `out` by unfolding.
-/
import proofs.«171213_j84241488544091_1_alg».proof.Proof.Gen.ReferenceIdeal

noncomputable section

namespace Cert.RefCore

open Cert.ReferenceIdeal Cert.ReferenceIdeal.Gen Idealize.ShloMosaic

variable {F : FTy → Type} [FloatOps F]

/-- The rows of the table named by the indices, a negative index counted from the end. -/
def embRows (inp : IVec S32x200 32) (emb : FVec F S50000x100 .f32) : FVec F S32x200x100 .f32 :=
  Host.gather gather_S50000x100_S32x200x1_S32x200x100_2_0_n_n_0_2_1100 emb
    (broadcastInDim S32x200x1 ![0, 1] bcast_S32x200_S32x200x1_0_1
      (select (cmpi .slt inp (broadcastInDim S32x200 ![] bcast_S_S32x200 (constantI S_ 32 0#32)))
        (addi inp (broadcastInDim S32x200 ![] bcast_S_S32x200 (constantI S_ 32 50000#32))) inp))

/-- A weight column laid along the feature axis of every row of every member. -/
def weightRows (a : FVec F S100x1 .f32) : FVec F S32x200x100 .f32 :=
  broadcastInDim S32x200x100 ![0, 1, 2] bcast_S1x1x100_S32x200x100_0_1_2
    (broadcastInDim S1x1x100 ![2] bcast_S100_S1x1x100_2 (shapeCast S100 a shapeCasts_S100x1_S100))

/-- The edge scores of every member: the weighted rows against the rows. -/
def score (h : FVec F S32x200x100 .f32) (a : FVec F S100x1 .f32) : FVec F S32x200x200 .f32 :=
  Host.dotGeneral dot_S32x200x100_S32x200x100_S32x200x200_2_2_1_1_0_0 none (mulf h (weightRows a)) h

/-- Leaky ReLU with slope 0.2. -/
def leaky (s : FVec F S32x200x200 .f32) : FVec F S32x200x200 .f32 :=
  select (cmpf .oge s (broadcastInDim S32x200x200 ![] bcast_S_S32x200x200 (constant S_ .f32 0x00000000#32))) s
    (mulf (broadcastInDim S32x200x200 ![] bcast_S_S32x200x200 (constant S_ .f32 0x3E4CCCCD#32)) s)

/-- The score of each edge's type, the finite fill elsewhere. -/
def pick (adj : IVec S32x200x200 32) (e0 e1 e2 e3 : FVec F S32x200x200 .f32) : FVec F S32x200x200 .f32 :=
  select (cmpi .eq adj (broadcastInDim S32x200x200 ![] bcast_S_S32x200x200 (constantI S_ 32 4#32))) e3
    (select (cmpi .eq adj (broadcastInDim S32x200x200 ![] bcast_S_S32x200x200 (constantI S_ 32 3#32))) e2
      (select (cmpi .eq adj (broadcastInDim S32x200x200 ![] bcast_S_S32x200x200 (constantI S_ 32 2#32))) e1
        (select (cmpi .eq adj (broadcastInDim S32x200x200 ![] bcast_S_S32x200x200 (constantI S_ 32 1#32))) e0
          (broadcastInDim S32x200x200 ![] bcast_S_S32x200x200 (constant S_ .f32 0xD9FFCB9E#32)))))

/-- A per-row value copied along its row. -/
def alongRow (x : FVec F S32x200 .f32) : FVec F S32x200x200 .f32 :=
  broadcastInDim S32x200x200 ![0, 1, 2] bcast_S32x200x1_S32x200x200_0_1_2
    (broadcastInDim S32x200x1 ![0, 1] bcast_S32x200_S32x200x1_0_1 x)

/-- Each row's maximum. -/
def rowMax (al : FVec F S32x200x200 .f32) : FVec F S32x200 .f32 :=
  maximumf (broadcastInDim S32x200 ![] bcast_S_S32x200 (constant S_ .f32 0xFF800000#32))
    (Host.reduce FloatOps.maximumf al (constant S_ .f32 0xFF800000#32) reducesTo_S32x200x200_S32x200_d2 h_S_)

/-- The shifted exponentials. -/
def expShift (al : FVec F S32x200x200 .f32) : FVec F S32x200x200 .f32 :=
  Host.exp (subf al (alongRow (rowMax al)))

/-- Each row divided by its sum. -/
def normalize (u : FVec F S32x200x200 .f32) : FVec F S32x200x200 .f32 :=
  Host.divf u (alongRow (Host.reduceAdd u (constant S_ .f32 0x00000000#32) reducesTo_S32x200x200_S32x200_d2 h_S_))

/-- The weighted sums of rows. -/
def aggregate (p : FVec F S32x200x200 .f32) (h : FVec F S32x200x100 .f32) : FVec F S32x200x100 .f32 :=
  Host.dotGeneral dot_S32x200x200_S32x200x100_S32x200x100_2_1_1_2_0_0 none p h

/-- Everything after the gather. -/
def core (h : FVec F S32x200x100 .f32) (adj : IVec S32x200x200 32) (a0 a1 a2 a3 : FVec F S100x1 .f32) :
    FVec F S32x200x100 .f32 :=
  aggregate (normalize (expShift (pick adj (leaky (score h a0)) (leaky (score h a1)) (leaky (score h a2))
    (leaky (score h a3))))) h

/-- The reference's result as a function of its arguments. -/
def out (inp : IVec S32x200 32) (adj : IVec S32x200x200 32) (emb : FVec F S50000x100 .f32)
    (a0 a1 a2 a3 : FVec F S100x1 .f32) : FVec F S32x200x100 .f32 :=
  core (embRows inp emb) adj a0 a1 a2 a3

end Cert.RefCore

end
-- ==== Proof.RefReadDot.lean ====
/-
  The reference's two batched contractions and its weight broadcast, read at one batch member: restricted
  to member `b` of the stack and read as functions of the matrix coordinates, they are the plain sums of
  `Cert.Spec`.  At the ideal values, where the host's `dot_general` is the sum of products over the
  contracted coordinate.
-/
import proofs.«171213_j84241488544091_1_alg».proof.Proof.RefCore
import proofs.«171213_j84241488544091_1_alg».proof.Proof.Spec
import Idealize.ShloMosaic.PureOps.Ideal.Laws
import Idealize.ShloMosaic.Lib.Pipeline.Value
import Idealize.ShloMosaic.Lib.IdealHost

noncomputable section

namespace Cert.RefRead

open Cert.ReferenceIdeal Cert.ReferenceIdeal.Gen Cert.RefCore Cert.Spec
open Idealize.ShloMosaic Idealize.ShloMosaic.ValueIdx

/-- A weight column laid along every row: entry `d` of the column at feature `d`. -/
theorem weightRows_rd (a : FVec Ideal S100x1 .f32) (b : Fin 32) :
    rd3 b (weightRows a) = fun (_ : Fin 200) (d : Fin 100) => col a d := by
  funext i d
  show weightRows a (ix3 b i d) = a (ix2 d (0 : Fin 1))
  unfold weightRows
  refine (broadcastInDim_apply _ _ _ (ix3 b i d) (ix3 (0 : Fin 1) (0 : Fin 1) d) ?_).trans ?_
  · intro ax
    match ax with
    | ⟨0, _⟩ => rfl
    | ⟨1, _⟩ => rfl
    | ⟨2, _⟩ => rfl
  refine (broadcastInDim_apply _ _ _ (ix3 (0 : Fin 1) (0 : Fin 1) d) (ix1 d) ?_).trans ?_
  · intro ax
    match ax with
    | ⟨0, _⟩ => rfl
  refine shapeCast_apply a _ (ix1 d) (ix2 d (0 : Fin 1)) ?_
  rw [Shape.rowMajor_val_two, Shape.rowMajor_val_one]
  show d.val * 1 + 0 = d.val
  omega

/-- The batched contraction over the feature axis, member by member. -/
theorem score_rd (h : FVec Ideal S32x200x100 .f32) (a : FVec Ideal S100x1 .f32) (b : Fin 32) :
    rd3 b (score h a) = sScore (rd3 b h) (col a) := by
  funext i j
  show score h a (ix3 b i j) = ∑ d : Fin 100, (h (ix3 b i d) * a (ix2 d (0 : Fin 1))) * h (ix3 b j d)
  unfold score
  show FloatOps.dotGeneral _ none _ _ _ (ix3 b i j) = _
  rw [Ideal.dotGeneral_apply,
    ← Equiv.sum_comp (contrEquiv1 dot_S32x200x100_S32x200x100_S32x200x200_2_2_1_1_0_0 100 rfl rfl).symm]
  refine Finset.sum_congr rfl fun c _ => ?_
  have c3 := contrEquiv1_symm_val dot_S32x200x100_S32x200x100_S32x200x200_2_2_1_1_0_0 100 rfl rfl c
  have l3 : dot_S32x200x100_S32x200x100_S32x200x200_2_2_1_1_0_0.lhsIdx (ix3 b i j)
      ((contrEquiv1 _ 100 rfl rfl).symm c) = ix3 b i c := by
    funext ax; apply Fin.ext
    match ax with
    | ⟨0, _⟩ => simp [DotDims.lhsIdx, dot_S32x200x100_S32x200x100_S32x200x200_2_2_1_1_0_0]; rfl
    | ⟨1, _⟩ => simp [DotDims.lhsIdx, dot_S32x200x100_S32x200x100_S32x200x200_2_2_1_1_0_0]; rfl
    | ⟨2, _⟩ => simp [DotDims.lhsIdx, dot_S32x200x100_S32x200x100_S32x200x200_2_2_1_1_0_0]; exact c3
  have r3 : dot_S32x200x100_S32x200x100_S32x200x200_2_2_1_1_0_0.rhsIdx (ix3 b i j)
      ((contrEquiv1 _ 100 rfl rfl).symm c) = ix3 b j c := by
    funext ax; apply Fin.ext
    match ax with
    | ⟨0, _⟩ => simp [DotDims.rhsIdx, dot_S32x200x100_S32x200x100_S32x200x200_2_2_1_1_0_0]; rfl
    | ⟨1, _⟩ => simp [DotDims.rhsIdx, dot_S32x200x100_S32x200x100_S32x200x200_2_2_1_1_0_0]; rfl
    | ⟨2, _⟩ => simp [DotDims.rhsIdx, dot_S32x200x100_S32x200x100_S32x200x200_2_2_1_1_0_0]; exact c3
  rw [l3, r3]
  have hw : weightRows a (ix3 b i c) = a (ix2 c (0 : Fin 1)) := congrFun (congrFun (weightRows_rd a b) i) c
  show (h (ix3 b i c) * weightRows a (ix3 b i c)) * h (ix3 b j c) = _
  rw [hw]

/-- The batched product of the weights with the rows, member by member. -/
theorem aggregate_rd (p : FVec Ideal S32x200x200 .f32) (h : FVec Ideal S32x200x100 .f32) (b : Fin 32) :
    rd3 b (aggregate p h) = sAgg (rd3 b p) (rd3 b h) := by
  funext i d
  show aggregate p h (ix3 b i d) = ∑ j : Fin 200, p (ix3 b i j) * h (ix3 b j d)
  unfold aggregate
  show FloatOps.dotGeneral _ none _ _ _ (ix3 b i d) = _
  rw [Ideal.dotGeneral_apply,
    ← Equiv.sum_comp (contrEquiv1 dot_S32x200x200_S32x200x100_S32x200x100_2_1_1_2_0_0 200 rfl rfl).symm]
  refine Finset.sum_congr rfl fun c _ => ?_
  have c3 := contrEquiv1_symm_val dot_S32x200x200_S32x200x100_S32x200x100_2_1_1_2_0_0 200 rfl rfl c
  have l3 : dot_S32x200x200_S32x200x100_S32x200x100_2_1_1_2_0_0.lhsIdx (ix3 b i d)
      ((contrEquiv1 _ 200 rfl rfl).symm c) = ix3 b i c := by
    funext ax; apply Fin.ext
    match ax with
    | ⟨0, _⟩ => simp [DotDims.lhsIdx, dot_S32x200x200_S32x200x100_S32x200x100_2_1_1_2_0_0]; rfl
    | ⟨1, _⟩ => simp [DotDims.lhsIdx, dot_S32x200x200_S32x200x100_S32x200x100_2_1_1_2_0_0]; rfl
    | ⟨2, _⟩ => simp [DotDims.lhsIdx, dot_S32x200x200_S32x200x100_S32x200x100_2_1_1_2_0_0]; exact c3
  have r3 : dot_S32x200x200_S32x200x100_S32x200x100_2_1_1_2_0_0.rhsIdx (ix3 b i d)
      ((contrEquiv1 _ 200 rfl rfl).symm c) = ix3 b c d := by
    funext ax; apply Fin.ext
    match ax with
    | ⟨0, _⟩ => simp [DotDims.rhsIdx, dot_S32x200x200_S32x200x100_S32x200x100_2_1_1_2_0_0]; rfl
    | ⟨1, _⟩ => simp [DotDims.rhsIdx, dot_S32x200x200_S32x200x100_S32x200x100_2_1_1_2_0_0]; exact c3
    | ⟨2, _⟩ => simp [DotDims.rhsIdx, dot_S32x200x200_S32x200x100_S32x200x100_2_1_1_2_0_0]; rfl
  rw [l3, r3]

end Cert.RefRead

end
-- ==== Proof.RefRead.lean ====
/-
  The reference's stages read at one batch member: each stage of `Cert.RefCore`, restricted to member `b`
  of the stack and read as a function of the matrix coordinates, is the corresponding plain function of
  `Cert.Spec` of the operands so read.  At the ideal values.
-/
import proofs.«171213_j84241488544091_1_alg».proof.Proof.RefCore
import proofs.«171213_j84241488544091_1_alg».proof.Proof.Spec
import proofs.«171213_j84241488544091_1_alg».proof.Proof.RefReadDot
import Idealize.ShloMosaic.PureOps.Ideal.Laws
import Idealize.ShloMosaic.Lib.Pipeline.Value
import Idealize.ShloMosaic.Lib.IdealHost

noncomputable section

namespace Cert.RefRead

open Cert.ReferenceIdeal Cert.ReferenceIdeal.Gen Cert.RefCore Cert.Spec
open Idealize.ShloMosaic Idealize.ShloMosaic.ValueIdx

theorem leaky_rd (s : FVec Ideal S32x200x200 .f32) (b : Fin 32) : rd3 b (leaky s) = sLeaky (rd3 b s) := by
  funext i j
  rfl

theorem pick_rd (adj : IVec S32x200x200 32) (e0 e1 e2 e3 : FVec Ideal S32x200x200 .f32) (b : Fin 32) :
    rd3 b (pick adj e0 e1 e2 e3) = sPick (rd3 b adj) (rd3 b e0) (rd3 b e1) (rd3 b e2) (rd3 b e3) := by
  funext i j
  rfl

/-- A per-row value copied along its row reads as that value. -/
theorem alongRow_rd (x : FVec Ideal S32x200 .f32) (b : Fin 32) :
    rd3 b (alongRow x) = fun (i : Fin 200) (_ : Fin 200) => rd2row b x i := by
  funext i j
  show alongRow x (ix3 b i j) = x (ix2 b i)
  unfold alongRow
  -- the outer copy reads (b, i, j) at (b, i, 0); the inner one reads (b, i, 0) at (b, i)
  refine (broadcastInDim_apply _ _ _ (ix3 b i j) (ix3 b i (0 : Fin 1)) ?_).trans ?_
  · intro a
    match a with
    | ⟨0, _⟩ => rfl
    | ⟨1, _⟩ => rfl
    | ⟨2, _⟩ => rfl
  · refine broadcastInDim_apply _ _ _ (ix3 b i (0 : Fin 1)) (ix2 b i) ?_
    intro a
    match a with
    | ⟨0, _⟩ => rfl
    | ⟨1, _⟩ => rfl

/-- Row `i` of member `b` with the column `k` put back is the index (b, i, k). -/
private theorem lift_row (h : S32x200x200.Reduces [2] S32x200) (b : Fin 32) (i : Fin 200) (k : Fin 200) :
    h.lift (ix2 b i) k = ix3 b i k := by
  funext c
  apply Fin.ext
  match c with
  | ⟨0, _⟩ => rfl
  | ⟨1, _⟩ => rfl
  | ⟨2, _⟩ => rfl

/-- The maximum of the −∞ array and any array `R`, read at (b, i), is `max (−∞) (R (b, i))`. -/
private theorem rowMax_aux (R : FVec Ideal S32x200 .f32) (b : Fin 32) (i : Fin 200) :
    rd2row b (maximumf (broadcastInDim S32x200 ![] bcast_S_S32x200 (constant (F := Ideal) S_ .f32 0xFF800000#32)) R) i
      = max (Ideal.ofBits .f32 0xFF800000#32) (R (ix2 b i)) := rfl

/-- The host's maximum over the last axis is the fold of `max` over the row. -/
theorem rowMax_rd (al : FVec Ideal S32x200x200 .f32) (b : Fin 32) : rd2row b (rowMax al) = sMax (rd3 b al) := by
  funext i
  have h : S32x200x200.Reduces [2] S32x200 := by decide
  -- the reduce at (b, i) is the fold of the maximum from −∞ over the columns k of the entries at (b, i, k)
  have e := Host.reduce_eq_fold_single FloatOps.maximumf al (constant (F := Ideal) S_ .f32 0xFF800000#32)
    reducesTo_S32x200x200_S32x200_d2 h h_S_ (ix2 b i)
  have hf : (al ∘ h.lift (ix2 b i)) = fun k : Fin 200 => al (ix3 b i k) :=
    funext fun k => congrArg al (lift_row h b i k)
  rw [hf] at e
  unfold rowMax
  rw [rowMax_aux, e]
  rfl

theorem expShift_rd (al : FVec Ideal S32x200x200 .f32) (b : Fin 32) : rd3 b (expShift al) = sExp (rd3 b al) := by
  funext i j
  have h2 := congrFun (rowMax_rd al b) i
  unfold expShift
  -- the row maxima enter only through their value at (b, i)
  generalize rowMax al = m at h2 ⊢
  have h1 := congrFun (congrFun (alongRow_rd m b) i) j
  show Ideal.exp (al (ix3 b i j) - alongRow m (ix3 b i j)) = Ideal.exp (al (ix3 b i j) - sMax (rd3 b al) i)
  rw [show alongRow m (ix3 b i j) = sMax (rd3 b al) i from h1.trans h2]

/-- The host's sum over the last axis, from a zero initial value, is the row's sum. -/
theorem normalize_rd (u : FVec Ideal S32x200x200 .f32) (b : Fin 32) : rd3 b (normalize u) = sNorm (rd3 b u) := by
  funext i j
  have h : S32x200x200.Reduces [2] S32x200 := by decide
  have h1 := congrFun (congrFun (alongRow_rd
    (Host.reduceAdd u (constant (F := Ideal) S_ .f32 0x00000000#32) reducesTo_S32x200x200_S32x200_d2 h_S_) b) i) j
  -- the sum at (b, i): the zero initial value plus the entries at (b, i, k) over the columns k
  have h2 : Host.reduceAdd u (constant (F := Ideal) S_ .f32 0x00000000#32) reducesTo_S32x200x200_S32x200_d2 h_S_ (ix2 b i)
      = ∑ j' : Fin 200, u (ix3 b i j') := by
    rw [hostReduceAdd_apply, Ideal.hostReduceAdd_single _ h]
    refine (congrArg (· + _) Ideal.ofBits_zero_f32).trans ?_
    rw [zero_add]
    exact Finset.sum_congr rfl fun k _ => congrArg u (lift_row h b i k)
  exact congrArg (Ideal.div (u (ix3 b i j))) (h1.trans h2)

/-- Member `b` of the reference's result is the specification of member `b` of its operands. -/
theorem core_rd (h : FVec Ideal S32x200x100 .f32) (adj : IVec S32x200x200 32) (a0 a1 a2 a3 : FVec Ideal S100x1 .f32)
    (b : Fin 32) :
    rd3 b (core h adj a0 a1 a2 a3) = sOut (rd3 b h) (rd3 b adj) (col a0) (col a1) (col a2) (col a3) := by
  unfold core sOut
  rw [aggregate_rd, normalize_rd, expShift_rd, pick_rd, leaky_rd, leaky_rd, leaky_rd, leaky_rd,
    score_rd, score_rd, score_rd, score_rd]

end Cert.RefRead

end
-- ==== Proof.KerArray.lean ====
/-
  From blocks to the array, for the kernel at the ideal values.  Grid point `t` stages member `t` of the
  gathered rows and of the edge types and the four weight columns whole, and writes back member `t` of
  the result; the body's stored block, read at (0, i, d), is the specification of that member's rows,
  edge types and weights, which is also what the reference's function of the whole stack holds at
  (t, i, d).  The thirty-two blocks tile the result array, so after the run it is the reference's function
  of the rows the host prefix gathers — the same gather as the reference's — and of the arguments.
-/
import proofs.«171213_j84241488544091_1_alg».proof.Proof.Gen.KernelIdeal.Value
import proofs.«171213_j84241488544091_1_alg».proof.Proof.KerRead
import proofs.«171213_j84241488544091_1_alg».proof.Proof.RefRead
import Idealize.ShloMosaic.Lib.StableHlo.Run
import Idealize.ShloMosaic.Lib.Pipeline.Value
import Idealize.ShloMosaic.Lib.StackMember

noncomputable section

namespace Cert.KerArray

open Cert.KernelIdeal Cert.KernelIdeal.Gen Cert.KernelIdeal.Value Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The body's stored block at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- The block with its leading unit axis dropped reads (i, d) at (0, i, d). -/
theorem pay2_rd (x0 : Vec Ideal S1x200x100 .f32) : rd2 (k0_pay2 x0) = rd3 (0 : Fin 1) x0 := by
  funext i d
  show shapeCast S200x100 x0 shapeCasts_S1x200x100_S200x100 (ix2 i d) = x0 (ix3 (0 : Fin 1) i d)
  refine (shapeCast_dropUnit_apply ![200, 100] x0 _ (ix2 i d)).trans ?_
  exact congrArg x0 (StackMember.cons_ix2 (G := 1) ⟨0, Nat.one_pos⟩ i d)

theorem pay3_rd (x1 : Vec Ideal S1x200x200 .i32) : rd2 (k0_pay3 x1) = rd3 (0 : Fin 1) x1 := by
  funext i j
  show shapeCast S200x200 x1 shapeCasts_S1x200x200_S200x200 (ix2 i j) = x1 (ix3 (0 : Fin 1) i j)
  refine (shapeCast_dropUnit_apply ![200, 200] x1 _ (ix2 i j)).trans ?_
  exact congrArg x1 (StackMember.cons_ix2 (G := 1) ⟨0, Nat.one_pos⟩ i j)

/-- What the body stores, read at (0, i, d): the specification of the loaded blocks. -/
theorem stored_apply (x0 : Vec Ideal S1x200x100 .f32) (x1 : Vec Ideal S1x200x200 .i32) (a0 a1 a2 a3 : Vec Ideal S100x1 .f32)
    (y : S1x200x100.Idx) (i : Fin 200) (d : Fin 100) (hi : (y 1).val = i.val) (hd : (y 2).val = d.val) :
    k0_pay1 (k0_pay8 (k0_pay2 x0) (k0_pay3 x1) (k0_pay4 x0) (k0_pay5 x0 a0) (k0_pay6 x0 a1) (k0_pay7 x0 a2)
        (Scalar.ofBits .f32 0x3E4CCCCD#32) a3) y
      = sOut (rd3 (0 : Fin 1) x0) (rd3 (0 : Fin 1) x1) (col a0) (col a1) (col a2) (col a3) i d := by
  rw [Cert.KerCore.body_eq]
  show shapeCast S1x200x100 (Cert.KerCore.kCore (k0_pay2 x0) (k0_pay3 x1) a0 a1 a2 a3) shapeCasts_S200x100_S1x200x100 y = _
  refine (shapeCast_addUnit_apply ![200, 100] _ _ y).trans ?_
  have hy : (fun a : Fin 2 => y a.succ) = ix2 i d := by
    funext a; apply Fin.ext
    match a with
    | ⟨0, _⟩ => exact hi
    | ⟨1, _⟩ => exact hd
  rw [hy]
  refine (congrFun (congrFun (Cert.KerRead.kCore_rd (k0_pay2 x0) (k0_pay3 x1) a0 a1 a2 a3) i) d).trans ?_
  rw [pay2_rd, pay3_rd]

/-! ## The arrays the region finds -/

/-- The rows the host prefix gathers are the reference's gather of the two arguments. -/
theorem V_rows (c : Dev nD) :
    (V m c main_v6 : S32x200x100.Idx → Elt Ideal .f32)
      = Cert.RefCore.embRows (F := Ideal) (m ((c : Thread nD τ).loc main_arg0)) (m ((c : Thread nD τ).loc main_arg3)) := by
  dsimp only [Gen.V, Gen.hostOps0]
  after_results
  rfl

/-- The result array's contents after the run: the reference's function of the arrays the region finds. -/
abbrev G (c : Dev nD) : S32x200x100.Idx → Elt Ideal .f32 :=
  Cert.RefCore.core (F := Ideal) (V m c main_v6) (V m c main_arg1) (V m c main_arg4) (V m c main_arg5) (V m c main_arg6) (V m c main_arg7)

/-- The printed index maps over the grid: the three batched windows sit at member `t`, the weights at zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_6.index t (0 : Fin 3) = t.val ∧ win0_6.index t (1 : Fin 3) = 0 ∧ win0_6.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- WHAT POINT `t` WRITES BACK is block `t` of `G`. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero hz3]
  simp only [View.ld_unit_zero (S := S1x200x100) hz3, View.ld_unit_zero (S := S1x200x200) hz3,
    View.ld_unit_zero (S := S100x1) hz2]
  obtain ⟨e00, e01, e02, e10, e11, e12, e60, e61, e62, e20, e21, e30, e31, e40, e41, e50, e51⟩ := idx_facts t
  have ht : t.val < 32 := t.isLt
  funext y
  have hy0 : (y 0).val < 1 := (y 0).isLt
  have hy1 : (y 1).val < 200 := (y 1).isLt
  have hy2 : (y 2).val < 100 := (y 2).isLt
  refine (stored_apply (iblk m c 0 t) (iblk m c 1 t) (iblk m c 2 t) (iblk m c 3 t) (iblk m c 4 t) (iblk m c 5 t) y
    ⟨(y 1).val, hy1⟩ ⟨(y 2).val, hy2⟩ rfl rfl).trans ?_
  show _ = Cert.RefCore.core (F := Ideal) (V m c main_v6) (V m c main_arg1) (V m c main_arg4) (V m c main_arg5) (V m c main_arg6)
    (V m c main_arg7) (((cfg0.win 6).blk t).view.emb y)
  have hemb : ((cfg0.win 6).blk t).view.emb y = ix3 (⟨t.val, ht⟩ : Fin 32) (⟨(y 1).val, hy1⟩ : Fin 200) (⟨(y 2).val, hy2⟩ : Fin 100) := by
    funext a; apply Fin.ext
    match a with
    | ⟨0, _⟩ => show win0_6.index t (0 : Fin 3) * 1 + 1 * (y 0).val = t.val; omega
    | ⟨1, _⟩ => show win0_6.index t (1 : Fin 3) * 200 + 1 * (y 1).val = (y 1).val; omega
    | ⟨2, _⟩ => show win0_6.index t (2 : Fin 3) * 100 + 1 * (y 2).val = (y 2).val; omega
  rw [hemb]
  refine Eq.trans ?_ (congrFun (congrFun (Cert.RefRead.core_rd (V m c main_v6) (V m c main_arg1) (V m c main_arg4)
    (V m c main_arg5) (V m c main_arg6) (V m c main_arg7) ⟨t.val, ht⟩) ⟨(y 1).val, hy1⟩) ⟨(y 2).val, hy2⟩).symm
  have r0 : rd3 (0 : Fin 1) (iblk m c 0 t) = rd3 (⟨t.val, ht⟩ : Fin 32) (V m c main_v6) := by
    funext i d
    show V m c main_v6 (((cfg0.win 0).blk t).view.emb (ix3 (0 : Fin 1) i d)) = V m c main_v6 (ix3 (⟨t.val, ht⟩ : Fin 32) i d)
    refine congrArg (V m c main_v6) ?_
    funext a; apply Fin.ext
    match a with
    | ⟨0, _⟩ => show win0_0.index t (0 : Fin 3) * 1 + 1 * 0 = t.val; omega
    | ⟨1, _⟩ => show win0_0.index t (1 : Fin 3) * 200 + 1 * i.val = i.val; omega
    | ⟨2, _⟩ => show win0_0.index t (2 : Fin 3) * 100 + 1 * d.val = d.val; omega
  have r1 : rd3 (0 : Fin 1) (iblk m c 1 t) = rd3 (⟨t.val, ht⟩ : Fin 32) (V m c main_arg1) := by
    funext i j
    show V m c main_arg1 (((cfg0.win 1).blk t).view.emb (ix3 (0 : Fin 1) i j)) = V m c main_arg1 (ix3 (⟨t.val, ht⟩ : Fin 32) i j)
    refine congrArg (V m c main_arg1) ?_
    funext a; apply Fin.ext
    match a with
    | ⟨0, _⟩ => show win0_1.index t (0 : Fin 3) * 1 + 1 * 0 = t.val; omega
    | ⟨1, _⟩ => show win0_1.index t (1 : Fin 3) * 200 + 1 * i.val = i.val; omega
    | ⟨2, _⟩ => show win0_1.index t (2 : Fin 3) * 200 + 1 * j.val = j.val; omega
  have r2 : col (iblk m c 2 t) = col (V m c main_arg4) := by
    funext d
    show V m c main_arg4 (((cfg0.win 2).blk t).view.emb (ix2 d (0 : Fin 1))) = V m c main_arg4 (ix2 d (0 : Fin 1))
    refine congrArg (V m c main_arg4) ?_
    funext a; apply Fin.ext
    match a with
    | ⟨0, _⟩ => show win0_2.index t (0 : Fin 2) * 100 + 1 * d.val = d.val; omega
    | ⟨1, _⟩ => show win0_2.index t (1 : Fin 2) * 1 + 1 * 0 = 0; omega
  have r3 : col (iblk m c 3 t) = col (V m c main_arg5) := by
    funext d
    show V m c main_arg5 (((cfg0.win 3).blk t).view.emb (ix2 d (0 : Fin 1))) = V m c main_arg5 (ix2 d (0 : Fin 1))
    refine congrArg (V m c main_arg5) ?_
    funext a; apply Fin.ext
    match a with
    | ⟨0, _⟩ => show win0_3.index t (0 : Fin 2) * 100 + 1 * d.val = d.val; omega
    | ⟨1, _⟩ => show win0_3.index t (1 : Fin 2) * 1 + 1 * 0 = 0; omega
  have r4 : col (iblk m c 4 t) = col (V m c main_arg6) := by
    funext d
    show V m c main_arg6 (((cfg0.win 4).blk t).view.emb (ix2 d (0 : Fin 1))) = V m c main_arg6 (ix2 d (0 : Fin 1))
    refine congrArg (V m c main_arg6) ?_
    funext a; apply Fin.ext
    match a with
    | ⟨0, _⟩ => show win0_4.index t (0 : Fin 2) * 100 + 1 * d.val = d.val; omega
    | ⟨1, _⟩ => show win0_4.index t (1 : Fin 2) * 1 + 1 * 0 = 0; omega
  have r5 : col (iblk m c 5 t) = col (V m c main_arg7) := by
    funext d
    show V m c main_arg7 (((cfg0.win 5).blk t).view.emb (ix2 d (0 : Fin 1))) = V m c main_arg7 (ix2 d (0 : Fin 1))
    refine congrArg (V m c main_arg7) ?_
    funext a; apply Fin.ext
    match a with
    | ⟨0, _⟩ => show win0_5.index t (0 : Fin 2) * 100 + 1 * d.val = d.val; omega
    | ⟨1, _⟩ => show win0_5.index t (1 : Fin 2) * 1 + 1 * 0 = 0; omega
  rw [r0, r1, r2, r3, r4, r5]

/-- An index of the array is in point `t`'s block iff each coordinate is in the block's range on its axis. -/
theorem mem_blk (t : Fin cfg0.N) (i : S32x200x100.Idx) :
    i ∈ ((cfg0.win 6).blk t).view.set ↔ ∀ a : Fin 3, win0_6.index t a * S1x200x100.size a ≤ (i a).val ∧ (i a).val < win0_6.index t a * S1x200x100.size a + S1x200x100.size a := by
  show i ∈ ((View.whole main_v7).slice (win0_6.rect t)).set ↔ _
  rw [View.set_slice_whole, Rect.mem_set_unit]
  exact Iff.rfl

/-- Every index of the result array is in the block of the point its member number names. -/
theorem cover (i : S32x200x100.Idx) :
    ∃ t : Fin cfg0.N, (cfg0.win 6).flush t = true ∧ i ∈ ((cfg0.win 6).blk t).view.set := by
  have hi0 : (i 0).val < 32 := (i 0).isLt
  have hi1 : (i 1).val < 200 := (i 1).isLt
  have hi2 : (i 2).val < 100 := (i 2).isLt
  have hN : cfg0.N = 32 := N_0
  obtain ⟨t, ht⟩ : ∃ t : Fin cfg0.N, t.val = (i 0).val := ⟨⟨(i 0).val, by omega⟩, rfl⟩
  refine ⟨t, flush0_6 t, ?_⟩
  obtain ⟨e00, e01, e02, e10, e11, e12, e60, e61, e62, -⟩ := idx_facts t
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 200 ≤ (i 1).val ∧ (i 1).val < win0_6.index t (1 : Fin 3) * 200 + 200; omega
  | ⟨2, _⟩ => show win0_6.index t (2 : Fin 3) * 100 ≤ (i 2).val ∧ (i 2).val < win0_6.index t (2 : Fin 3) * 100 + 100; omega

/-- THE ARRAY after the run is `G`. -/
theorem final (c : Dev nD) : (dats m 0 c).arrAt 6 cfg0.N = G m c :=
  (dats m 0 c).arrAt_eq_of_cover 6 (G m c) (fun t _ => flushed_eq m c t) cover

/-- `G` over the arguments as launched is the reference's function of them. -/
theorem G_eq (c : Dev nD) :
    G m c = Cert.RefCore.out (F := Ideal) (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) := by
  unfold G Cert.RefCore.out
  rw [V_rows, V_main_arg1, V_main_arg4, V_main_arg5, V_main_arg6, V_main_arg7]

/-- The kernel's run: the result array at the reference's function of the arguments, the arguments unchanged. -/
theorem run : θ_run defs (onTc (τ := τ) (main (F := Ideal))) ⟨m, fun _ => 0, ρ⟩ fun r => ∀ c : Dev nD,
      r.2.mem ((c : Thread nD τ).loc main_v7)
        = Cert.RefCore.out (F := Ideal) (m ((c : Thread nD τ).loc main_arg0)) (m ((c : Thread nD τ).loc main_arg1))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (G_eq m c)), (h c).2⟩)
    (Value.run_blocks m ρ)

end Cert.KerArray

end
-- ==== Proof.RefRun.lean ====
/-
  The reference's run.  Its @main is a straight line of 94 host operations once the three functions it
  calls (the leaky ReLU, the two selects) are unfolded at their call sites over each call's own buffers;
  every weakly fair execution of such a line terminates with each buffer at the operations' fold over the
  launch contents.  Read at the result buffer, the fold is `Cert.RefCore.out` of the arguments (each
  operation's result at its own buffer is its function of its operands' buffers, and no operation writes an
  argument), so the run ends with the result at `out` of the arguments and the arguments as launched.
-/
import proofs.«171213_j84241488544091_1_alg».proof.Proof.RefCore
import Idealize.ShloMosaic.Lib.StableHlo.Run

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order, the calls unfolded: each `leaky_relu(s, 0.2)` is seven (the zero, its
    broadcast, the comparison, the slope converted to its own type, its broadcast, the product, the select
    of `_where` into the call's result), `_where_0` two (the fill's broadcast, the select), each `_where` one. -/
abbrev ops : List (HloOp τ sig (Elt F)) :=
  [
    StableHlo.nullary main_cst (constant S_ .f32 0xD9FFCB9E#32),
    StableHlo.nullary main_c (constantI S_ 32 0#32),
    StableHlo.unary main_c main_v0 (broadcastInDim S32x200 ![] bcast_S_S32x200 : (⟨S_, .i32⟩ : BufTy).Contents (Elt F) → (⟨S32x200, .i32⟩ : BufTy).Contents (Elt F)),
    StableHlo.binary main_arg0 main_v0 main_v1 (cmpi .slt : (⟨S32x200, .i32⟩ : BufTy).Contents (Elt F) → (⟨S32x200, .i32⟩ : BufTy).Contents (Elt F) → (⟨S32x200, .i1⟩ : BufTy).Contents (Elt F)),
    StableHlo.nullary main_c_0 (constantI S_ 32 50000#32),
    StableHlo.unary main_c_0 main_v2 (broadcastInDim S32x200 ![] bcast_S_S32x200 : (⟨S_, .i32⟩ : BufTy).Contents (Elt F) → (⟨S32x200, .i32⟩ : BufTy).Contents (Elt F)),
    StableHlo.binary main_arg0 main_v2 main_v3 (addi : (⟨S32x200, .i32⟩ : BufTy).Contents (Elt F) → (⟨S32x200, .i32⟩ : BufTy).Contents (Elt F) → (⟨S32x200, .i32⟩ : BufTy).Contents (Elt F)),
    StableHlo.ternary main_v1 main_v3 main_arg0 main_v4 (select : (⟨S32x200, .i1⟩ : BufTy).Contents (Elt F) → (⟨S32x200, .i32⟩ : BufTy).Contents (Elt F) → (⟨S32x200, .i32⟩ : BufTy).Contents (Elt F) → (⟨S32x200, .i32⟩ : BufTy).Contents (Elt F)),
    StableHlo.unary main_v4 main_v5 (broadcastInDim S32x200x1 ![0, 1] bcast_S32x200_S32x200x1_0_1 : (⟨S32x200, .i32⟩ : BufTy).Contents (Elt F) → (⟨S32x200x1, .i32⟩ : BufTy).Contents (Elt F)),
    StableHlo.binary main_arg3 main_v5 main_v6 ((fun x i => Host.gather gather_S50000x100_S32x200x1_S32x200x100_2_0_n_n_0_2_1100 x i) : (⟨S50000x100, .f32⟩ : BufTy).Contents (Elt F) → (⟨S32x200x1, .i32⟩ : BufTy).Contents (Elt F) → (⟨S32x200x100, .f32⟩ : BufTy).Contents (Elt F)),
    StableHlo.reshape main_arg4 main_v7 rfl shapeCasts_S100x1_S100,
    StableHlo.unary main_v7 main_v8 (broadcastInDim S1x1x100 ![2] bcast_S100_S1x1x100_2 : (⟨S100, .f32⟩ : BufTy).Contents (Elt F) → (⟨S1x1x100, .f32⟩ : BufTy).Contents (Elt F)),
    StableHlo.unary main_v8 main_v9 (broadcastInDim S32x200x100 ![0, 1, 2] bcast_S1x1x100_S32x200x100_0_1_2 : (⟨S1x1x100, .f32⟩ : BufTy).Contents (Elt F) → (⟨S32x200x100, .f32⟩ : BufTy).Contents (Elt F)),
    StableHlo.binary main_v6 main_v9 main_v10 (mulf : (⟨S32x200x100, .f32⟩ : BufTy).Contents (Elt F) → (⟨S32x200x100, .f32⟩ : BufTy).Contents (Elt F) → (⟨S32x200x100, .f32⟩ : BufTy).Contents (Elt F)),
    StableHlo.binary main_v10 main_v6 main_v11 ((fun l r => Host.dotGeneral dot_S32x200x100_S32x200x100_S32x200x200_2_2_1_1_0_0 none l r) : (⟨S32x200x100, .f32⟩ : BufTy).Contents (Elt F) → (⟨S32x200x100, .f32⟩ : BufTy).Contents (Elt F) → (⟨S32x200x200, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S32x200x200 ![] bcast_S_S32x200x200),
    StableHlo.TRef.binary (StableHlo.TRef.of main_v11 : TRef sig ⟨S32x200x200, .f32⟩) main_call0.v0 main_call0.v1 (cmpf .oge),
    StableHlo.TRef.unary (StableHlo.TRef.of main_cst_1 : TRef sig ⟨S_, .f32⟩) main_call0.v2 id,
    StableHlo.TRef.unary main_call0.v2 main_call0.v3 (broadcastInDim S32x200x200 ![] bcast_S_S32x200x200),
    StableHlo.TRef.binary main_call0.v3 (StableHlo.TRef.of main_v11 : TRef sig ⟨S32x200x200, .f32⟩) main_call0.v4 mulf,
    StableHlo.TRef.ternary main_call0.v1 (StableHlo.TRef.of main_v11 : TRef sig ⟨S32x200x200, .f32⟩) main_call0.v4 main_call0.call0.v0 select,
    StableHlo.reshape main_arg5 main_v13 rfl shapeCasts_S100x1_S100,
    StableHlo.unary main_v13 main_v14 (broadcastInDim S1x1x100 ![2] bcast_S100_S1x1x100_2 : (⟨S100, .f32⟩ : BufTy).Contents (Elt F) → (⟨S1x1x100, .f32⟩ : BufTy).Contents (Elt F)),
    StableHlo.unary main_v14 main_v15 (broadcastInDim S32x200x100 ![0, 1, 2] bcast_S1x1x100_S32x200x100_0_1_2 : (⟨S1x1x100, .f32⟩ : BufTy).Contents (Elt F) → (⟨S32x200x100, .f32⟩ : BufTy).Contents (Elt F)),
    StableHlo.binary main_v6 main_v15 main_v16 (mulf : (⟨S32x200x100, .f32⟩ : BufTy).Contents (Elt F) → (⟨S32x200x100, .f32⟩ : BufTy).Contents (Elt F) → (⟨S32x200x100, .f32⟩ : BufTy).Contents (Elt F)),
    StableHlo.binary main_v16 main_v6 main_v17 ((fun l r => Host.dotGeneral dot_S32x200x100_S32x200x100_S32x200x200_2_2_1_1_0_0 none l r) : (⟨S32x200x100, .f32⟩ : BufTy).Contents (Elt F) → (⟨S32x200x100, .f32⟩ : BufTy).Contents (Elt F) → (⟨S32x200x200, .f32⟩ : BufTy).Contents (Elt F)),
    StableHlo.nullary main_cst_2 (constant S_ .f32 0x3E4CCCCD#32),
    StableHlo.TRef.nullary main_call1.cst (constant S_ .f32 0x00000000#32),
    StableHlo.TRef.unary main_call1.cst main_call1.v0 (broadcastInDim S32x200x200 ![] bcast_S_S32x200x200),
    StableHlo.TRef.binary (StableHlo.TRef.of main_v17 : TRef sig ⟨S32x200x200, .f32⟩) main_call1.v0 main_call1.v1 (cmpf .oge),
    StableHlo.TRef.unary (StableHlo.TRef.of main_cst_2 : TRef sig ⟨S_, .f32⟩) main_call1.v2 id,
    StableHlo.TRef.unary main_call1.v2 main_call1.v3 (broadcastInDim S32x200x200 ![] bcast_S_S32x200x200),
    StableHlo.TRef.binary main_call1.v3 (StableHlo.TRef.of main_v17 : TRef sig ⟨S32x200x200, .f32⟩) main_call1.v4 mulf,
    StableHlo.TRef.ternary main_call1.v1 (StableHlo.TRef.of main_v17 : TRef sig ⟨S32x200x200, .f32⟩) main_call1.v4 main_call1.call0.v0 select,
    StableHlo.reshape main_arg6 main_v19 rfl shapeCasts_S100x1_S100,
    StableHlo.unary main_v19 main_v20 (broadcastInDim S1x1x100 ![2] bcast_S100_S1x1x100_2 : (⟨S100, .f32⟩ : BufTy).Contents (Elt F) → (⟨S1x1x100, .f32⟩ : BufTy).Contents (Elt F)),
    StableHlo.unary main_v20 main_v21 (broadcastInDim S32x200x100 ![0, 1, 2] bcast_S1x1x100_S32x200x100_0_1_2 : (⟨S1x1x100, .f32⟩ : BufTy).Contents (Elt F) → (⟨S32x200x100, .f32⟩ : BufTy).Contents (Elt F)),
    StableHlo.binary main_v6 main_v21 main_v22 (mulf : (⟨S32x200x100, .f32⟩ : BufTy).Contents (Elt F) → (⟨S32x200x100, .f32⟩ : BufTy).Contents (Elt F) → (⟨S32x200x100, .f32⟩ : BufTy).Contents (Elt F)),
    StableHlo.binary main_v22 main_v6 main_v23 ((fun l r => Host.dotGeneral dot_S32x200x100_S32x200x100_S32x200x200_2_2_1_1_0_0 none l r) : (⟨S32x200x100, .f32⟩ : BufTy).Contents (Elt F) → (⟨S32x200x100, .f32⟩ : BufTy).Contents (Elt F) → (⟨S32x200x200, .f32⟩ : BufTy).Contents (Elt F)),
    StableHlo.nullary main_cst_3 (constant S_ .f32 0x3E4CCCCD#32),
    StableHlo.TRef.nullary main_call2.cst (constant S_ .f32 0x00000000#32),
    StableHlo.TRef.unary main_call2.cst main_call2.v0 (broadcastInDim S32x200x200 ![] bcast_S_S32x200x200),
    StableHlo.TRef.binary (StableHlo.TRef.of main_v23 : TRef sig ⟨S32x200x200, .f32⟩) main_call2.v0 main_call2.v1 (cmpf .oge),
    StableHlo.TRef.unary (StableHlo.TRef.of main_cst_3 : TRef sig ⟨S_, .f32⟩) main_call2.v2 id,
    StableHlo.TRef.unary main_call2.v2 main_call2.v3 (broadcastInDim S32x200x200 ![] bcast_S_S32x200x200),
    StableHlo.TRef.binary main_call2.v3 (StableHlo.TRef.of main_v23 : TRef sig ⟨S32x200x200, .f32⟩) main_call2.v4 mulf,
    StableHlo.TRef.ternary main_call2.v1 (StableHlo.TRef.of main_v23 : TRef sig ⟨S32x200x200, .f32⟩) main_call2.v4 main_call2.call0.v0 select,
    StableHlo.reshape main_arg7 main_v25 rfl shapeCasts_S100x1_S100,
    StableHlo.unary main_v25 main_v26 (broadcastInDim S1x1x100 ![2] bcast_S100_S1x1x100_2 : (⟨S100, .f32⟩ : BufTy).Contents (Elt F) → (⟨S1x1x100, .f32⟩ : BufTy).Contents (Elt F)),
    StableHlo.unary main_v26 main_v27 (broadcastInDim S32x200x100 ![0, 1, 2] bcast_S1x1x100_S32x200x100_0_1_2 : (⟨S1x1x100, .f32⟩ : BufTy).Contents (Elt F) → (⟨S32x200x100, .f32⟩ : BufTy).Contents (Elt F)),
    StableHlo.binary main_v6 main_v27 main_v28 (mulf : (⟨S32x200x100, .f32⟩ : BufTy).Contents (Elt F) → (⟨S32x200x100, .f32⟩ : BufTy).Contents (Elt F) → (⟨S32x200x100, .f32⟩ : BufTy).Contents (Elt F)),
    StableHlo.binary main_v28 main_v6 main_v29 ((fun l r => Host.dotGeneral dot_S32x200x100_S32x200x100_S32x200x200_2_2_1_1_0_0 none l r) : (⟨S32x200x100, .f32⟩ : BufTy).Contents (Elt F) → (⟨S32x200x100, .f32⟩ : BufTy).Contents (Elt F) → (⟨S32x200x200, .f32⟩ : BufTy).Contents (Elt F)),
    StableHlo.nullary main_cst_4 (constant S_ .f32 0x3E4CCCCD#32),
    StableHlo.TRef.nullary main_call3.cst (constant S_ .f32 0x00000000#32),
    StableHlo.TRef.unary main_call3.cst main_call3.v0 (broadcastInDim S32x200x200 ![] bcast_S_S32x200x200),
    StableHlo.TRef.binary (StableHlo.TRef.of main_v29 : TRef sig ⟨S32x200x200, .f32⟩) main_call3.v0 main_call3.v1 (cmpf .oge),
    StableHlo.TRef.unary (StableHlo.TRef.of main_cst_4 : TRef sig ⟨S_, .f32⟩) main_call3.v2 id,
    StableHlo.TRef.unary main_call3.v2 main_call3.v3 (broadcastInDim S32x200x200 ![] bcast_S_S32x200x200),
    StableHlo.TRef.binary main_call3.v3 (StableHlo.TRef.of main_v29 : TRef sig ⟨S32x200x200, .f32⟩) main_call3.v4 mulf,
    StableHlo.TRef.ternary main_call3.v1 (StableHlo.TRef.of main_v29 : TRef sig ⟨S32x200x200, .f32⟩) main_call3.v4 main_call3.call0.v0 select,
    StableHlo.nullary main_c_5 (constantI S_ 32 1#32),
    StableHlo.unary main_c_5 main_v31 (broadcastInDim S32x200x200 ![] bcast_S_S32x200x200 : (⟨S_, .i32⟩ : BufTy).Contents (Elt F) → (⟨S32x200x200, .i32⟩ : BufTy).Contents (Elt F)),
    StableHlo.binary main_arg1 main_v31 main_v32 (cmpi .eq : (⟨S32x200x200, .i32⟩ : BufTy).Contents (Elt F) → (⟨S32x200x200, .i32⟩ : BufTy).Contents (Elt F) → (⟨S32x200x200, .i1⟩ : BufTy).Contents (Elt F)),
    StableHlo.TRef.unary (StableHlo.TRef.of main_cst : TRef sig ⟨S_, .f32⟩) main_call4.v0 (broadcastInDim S32x200x200 ![] bcast_S_S32x200x200),
    StableHlo.TRef.ternary (StableHlo.TRef.of main_v32 : TRef sig ⟨S32x200x200, .i1⟩) (StableHlo.TRef.of main_v12 : TRef sig ⟨S32x200x200, .f32⟩) main_call4.v0 main_call4.v1 select,
    StableHlo.nullary main_c_6 (constantI S_ 32 2#32),
    StableHlo.unary main_c_6 main_v34 (broadcastInDim S32x200x200 ![] bcast_S_S32x200x200 : (⟨S_, .i32⟩ : BufTy).Contents (Elt F) → (⟨S32x200x200, .i32⟩ : BufTy).Contents (Elt F)),
    StableHlo.binary main_arg1 main_v34 main_v35 (cmpi .eq : (⟨S32x200x200, .i32⟩ : BufTy).Contents (Elt F) → (⟨S32x200x200, .i32⟩ : BufTy).Contents (Elt F) → (⟨S32x200x200, .i1⟩ : BufTy).Contents (Elt F)),
    StableHlo.TRef.ternary (StableHlo.TRef.of main_v35 : TRef sig ⟨S32x200x200, .i1⟩) (StableHlo.TRef.of main_v18 : TRef sig ⟨S32x200x200, .f32⟩) (StableHlo.TRef.of main_v33 : TRef sig ⟨S32x200x200, .f32⟩) main_call5.v0 select,
    StableHlo.nullary main_c_7 (constantI S_ 32 3#32),
    StableHlo.unary main_c_7 main_v37 (broadcastInDim S32x200x200 ![] bcast_S_S32x200x200 : (⟨S_, .i32⟩ : BufTy).Contents (Elt F) → (⟨S32x200x200, .i32⟩ : BufTy).Contents (Elt F)),
    StableHlo.binary main_arg1 main_v37 main_v38 (cmpi .eq : (⟨S32x200x200, .i32⟩ : BufTy).Contents (Elt F) → (⟨S32x200x200, .i32⟩ : BufTy).Contents (Elt F) → (⟨S32x200x200, .i1⟩ : BufTy).Contents (Elt F)),
    StableHlo.TRef.ternary (StableHlo.TRef.of main_v38 : TRef sig ⟨S32x200x200, .i1⟩) (StableHlo.TRef.of main_v24 : TRef sig ⟨S32x200x200, .f32⟩) (StableHlo.TRef.of main_v36 : TRef sig ⟨S32x200x200, .f32⟩) main_call6.v0 select,
    StableHlo.nullary main_c_8 (constantI S_ 32 4#32),
    StableHlo.unary main_c_8 main_v40 (broadcastInDim S32x200x200 ![] bcast_S_S32x200x200 : (⟨S_, .i32⟩ : BufTy).Contents (Elt F) → (⟨S32x200x200, .i32⟩ : BufTy).Contents (Elt F)),
    StableHlo.binary main_arg1 main_v40 main_v41 (cmpi .eq : (⟨S32x200x200, .i32⟩ : BufTy).Contents (Elt F) → (⟨S32x200x200, .i32⟩ : BufTy).Contents (Elt F) → (⟨S32x200x200, .i1⟩ : BufTy).Contents (Elt F)),
    StableHlo.TRef.ternary (StableHlo.TRef.of main_v41 : TRef sig ⟨S32x200x200, .i1⟩) (StableHlo.TRef.of main_v30 : TRef sig ⟨S32x200x200, .f32⟩) (StableHlo.TRef.of main_v39 : TRef sig ⟨S32x200x200, .f32⟩) main_call7.v0 select,
    StableHlo.nullary main_cst_9 (constant S_ .f32 0xFF800000#32),
    StableHlo.binary main_v42 main_cst_9 main_v43 ((fun x v => Host.reduce FloatOps.maximumf x v reducesTo_S32x200x200_S32x200_d2 h_S_) : (⟨S32x200x200, .f32⟩ : BufTy).Contents (Elt F) → (⟨S_, .f32⟩ : BufTy).Contents (Elt F) → (⟨S32x200, .f32⟩ : BufTy).Contents (Elt F)),
    StableHlo.nullary main_cst_10 (constant S_ .f32 0xFF800000#32),
    StableHlo.unary main_cst_10 main_v44 (broadcastInDim S32x200 ![] bcast_S_S32x200 : (⟨S_, .f32⟩ : BufTy).Contents (Elt F) → (⟨S32x200, .f32⟩ : BufTy).Contents (Elt F)),
    StableHlo.binary main_v44 main_v43 main_v45 (maximumf : (⟨S32x200, .f32⟩ : BufTy).Contents (Elt F) → (⟨S32x200, .f32⟩ : BufTy).Contents (Elt F) → (⟨S32x200, .f32⟩ : BufTy).Contents (Elt F)),
    StableHlo.unary main_v45 main_v46 (broadcastInDim S32x200x1 ![0, 1] bcast_S32x200_S32x200x1_0_1 : (⟨S32x200, .f32⟩ : BufTy).Contents (Elt F) → (⟨S32x200x1, .f32⟩ : BufTy).Contents (Elt F)),
    StableHlo.unary main_v46 main_v47 (broadcastInDim S32x200x200 ![0, 1, 2] bcast_S32x200x1_S32x200x200_0_1_2 : (⟨S32x200x1, .f32⟩ : BufTy).Contents (Elt F) → (⟨S32x200x200, .f32⟩ : BufTy).Contents (Elt F)),
    StableHlo.binary main_v42 main_v47 main_v48 (subf : (⟨S32x200x200, .f32⟩ : BufTy).Contents (Elt F) → (⟨S32x200x200, .f32⟩ : BufTy).Contents (Elt F) → (⟨S32x200x200, .f32⟩ : BufTy).Contents (Elt F)),
    StableHlo.unary main_v48 main_v49 (Host.exp : (⟨S32x200x200, .f32⟩ : BufTy).Contents (Elt F) → (⟨S32x200x200, .f32⟩ : BufTy).Contents (Elt F)),
    StableHlo.nullary main_cst_11 (constant S_ .f32 0x00000000#32),
    StableHlo.binary main_v49 main_cst_11 main_v50 ((fun x v => Host.reduceAdd x v reducesTo_S32x200x200_S32x200_d2 h_S_) : (⟨S32x200x200, .f32⟩ : BufTy).Contents (Elt F) → (⟨S_, .f32⟩ : BufTy).Contents (Elt F) → (⟨S32x200, .f32⟩ : BufTy).Contents (Elt F)),
    StableHlo.unary main_v50 main_v51 (broadcastInDim S32x200x1 ![0, 1] bcast_S32x200_S32x200x1_0_1 : (⟨S32x200, .f32⟩ : BufTy).Contents (Elt F) → (⟨S32x200x1, .f32⟩ : BufTy).Contents (Elt F)),
    StableHlo.unary main_v51 main_v52 (broadcastInDim S32x200x200 ![0, 1, 2] bcast_S32x200x1_S32x200x200_0_1_2 : (⟨S32x200x1, .f32⟩ : BufTy).Contents (Elt F) → (⟨S32x200x200, .f32⟩ : BufTy).Contents (Elt F)),
    StableHlo.binary main_v49 main_v52 main_v53 (Host.divf : (⟨S32x200x200, .f32⟩ : BufTy).Contents (Elt F) → (⟨S32x200x200, .f32⟩ : BufTy).Contents (Elt F) → (⟨S32x200x200, .f32⟩ : BufTy).Contents (Elt F)),
    StableHlo.binary main_v53 main_v6 main_v54 ((fun l r => Host.dotGeneral dot_S32x200x200_S32x200x100_S32x200x100_2_1_1_2_0_0 none l r) : (⟨S32x200x200, .f32⟩ : BufTy).Contents (Elt F) → (⟨S32x200x100, .f32⟩ : BufTy).Contents (Elt F) → (⟨S32x200x100, .f32⟩ : BufTy).Contents (Elt F)) ]

set_option maxRecDepth 8192 in
set_option maxHeartbeats 4000000 in
/-- @main is that straight line: the functions' bodies unfolded at their calls, sequencing reassociated. -/
theorem main_eq (c : Dev nD) : main (F := F) c = seq ops := by
  simp only [main, main_part0, main_part1, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., unary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., reshape_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    reshape_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., reshape_bufs_sub .., unary_bufs_sub .., unary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., unary_bufs_sub .., binary_bufs_sub .., unary_bufs_sub ..,
    ternary_bufs_sub .., nullary_bufs_sub .., unary_bufs_sub .., binary_bufs_sub .., ternary_bufs_sub .., nullary_bufs_sub ..,
    unary_bufs_sub .., binary_bufs_sub .., ternary_bufs_sub .., nullary_bufs_sub .., unary_bufs_sub .., binary_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub ..⟩

/-- Every weakly fair execution of @main terminates with each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 16384 in
set_option maxHeartbeats 8000000 in
/-- The fold at the result buffer is `out` of the valuation at the argument buffers. -/
theorem out_eq (V : Valuation τ sig (Elt F)) :
    after ops V (main_v54 : DevRef τ sig)
      = Cert.RefCore.out (V (main_arg0 : DevRef τ sig)) (V (main_arg1 : DevRef τ sig)) (V (main_arg3 : DevRef τ sig))
          (V (main_arg4 : DevRef τ sig)) (V (main_arg5 : DevRef τ sig)) (V (main_arg6 : DevRef τ sig))
          (V (main_arg7 : DevRef τ sig)) := by
  after_results_simp <;> rfl

/-! No operation of the line writes an argument. -/

set_option maxRecDepth 16384 in
set_option maxHeartbeats 8000000 in
theorem arg0_eq (V : Valuation τ sig (Elt F)) : after ops V (main_arg0 : DevRef τ sig) = V (main_arg0 : DevRef τ sig) := by
  after_results_simp <;> rfl

set_option maxRecDepth 16384 in
set_option maxHeartbeats 8000000 in
theorem arg1_eq (V : Valuation τ sig (Elt F)) : after ops V (main_arg1 : DevRef τ sig) = V (main_arg1 : DevRef τ sig) := by
  after_results_simp <;> rfl

set_option maxRecDepth 16384 in
set_option maxHeartbeats 8000000 in
theorem arg2_eq (V : Valuation τ sig (Elt F)) : after ops V (main_arg2 : DevRef τ sig) = V (main_arg2 : DevRef τ sig) := by
  after_results_simp <;> rfl

set_option maxRecDepth 16384 in
set_option maxHeartbeats 8000000 in
theorem arg3_eq (V : Valuation τ sig (Elt F)) : after ops V (main_arg3 : DevRef τ sig) = V (main_arg3 : DevRef τ sig) := by
  after_results_simp <;> rfl

set_option maxRecDepth 16384 in
set_option maxHeartbeats 8000000 in
theorem arg4_eq (V : Valuation τ sig (Elt F)) : after ops V (main_arg4 : DevRef τ sig) = V (main_arg4 : DevRef τ sig) := by
  after_results_simp <;> rfl

set_option maxRecDepth 16384 in
set_option maxHeartbeats 8000000 in
theorem arg5_eq (V : Valuation τ sig (Elt F)) : after ops V (main_arg5 : DevRef τ sig) = V (main_arg5 : DevRef τ sig) := by
  after_results_simp <;> rfl

set_option maxRecDepth 16384 in
set_option maxHeartbeats 8000000 in
theorem arg6_eq (V : Valuation τ sig (Elt F)) : after ops V (main_arg6 : DevRef τ sig) = V (main_arg6 : DevRef τ sig) := by
  after_results_simp <;> rfl

set_option maxRecDepth 16384 in
set_option maxHeartbeats 8000000 in
theorem arg7_eq (V : Valuation τ sig (Elt F)) : after ops V (main_arg7 : DevRef τ sig) = V (main_arg7 : DevRef τ sig) := by
  after_results_simp <;> rfl

/-- The reference's run: every weakly fair execution of @main terminates with the result at `out` of the arguments
    and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = Cert.RefCore.out (m ((c.tc : Thread nD τ).loc main_arg0))
            (m ((c.tc : Thread nD τ).loc main_arg1))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v54).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.RefRun

end
-- ==== Proof.lean ====
/-
  The certificate of a graph-attention layer: per batch member, four edge scores
  `Σ_d (h_i,d · a_k,d) · h_j,d`, a leaky ReLU, the score of each edge's type (a finite fill where it has
  none), a softmax along each row and the weighted sum of the member's rows — a Pallas kernel over a grid of
  the thirty-two members against jnp's einsum / softmax over the whole stack.

  Both programs gather the rows `h = emb[inputs]` by the same host operations.  At the ideal values the
  kernel's narrowing to bf16 is the identity, a matrix product into a zero accumulator and the host's
  `dot_general` are the same sum of products, and a lane reduction and the host's `reduce` are the same
  sum (from a zero initial value) or the same fold of `max` (from −∞); every other operation is pointwise and
  spelt alike, constants included.  So member by member the two programs compute one plain function of the
  member's rows, edge types and the four weight columns (`Cert.Spec.sOut`): the kernel's stored block read at
  an index (`Cert.KerRead`), the reference's function of the whole stack read at that member
  (`Cert.RefRead`).  The kernel's thirty-two blocks tile its result array (`Cert.KerArray`), and the
  reference's straight line of host operations, its calls unfolded, ends at the same function of the
  arguments (`Cert.RefRun`).  No law of the extended reals beyond `0 + x = x` is used, so the precondition is
  never opened.  The three frames are the kernels' generated frame certificates and the reference's run with
  the result dropped; the idealization's ledger is empty.
-/
import proofs.«171213_j84241488544091_1_alg».proof.Defs
import proofs.«171213_j84241488544091_1_alg».proof.Proof.Gen.Kernel
import proofs.«171213_j84241488544091_1_alg».proof.Proof.Gen.Kernel.Skeleton
import proofs.«171213_j84241488544091_1_alg».proof.Proof.Gen.Kernel.Launch
import proofs.«171213_j84241488544091_1_alg».proof.Proof.Gen.Kernel.Points
import proofs.«171213_j84241488544091_1_alg».proof.Proof.Gen.Kernel.Frame
import proofs.«171213_j84241488544091_1_alg».proof.Proof.Gen.KernelIdeal
import proofs.«171213_j84241488544091_1_alg».proof.Proof.Gen.KernelIdeal.Skeleton
import proofs.«171213_j84241488544091_1_alg».proof.Proof.Gen.KernelIdeal.Launch
import proofs.«171213_j84241488544091_1_alg».proof.Proof.Gen.KernelIdeal.Points
import proofs.«171213_j84241488544091_1_alg».proof.Proof.Gen.KernelIdeal.Frame
import proofs.«171213_j84241488544091_1_alg».proof.Proof.Gen.KernelIdeal.Value
import proofs.«171213_j84241488544091_1_alg».proof.Proof.Gen.ReferenceIdeal
import proofs.«171213_j84241488544091_1_alg».proof.Proof.Gen.Pre_finite_inputs
import proofs.«171213_j84241488544091_1_alg».proof.Proof.KerArray
import proofs.«171213_j84241488544091_1_alg».proof.Proof.RefRun
import Idealize.ShloMosaic.Adequacy
import Idealize.ShloMosaic.Init

noncomputable section

namespace Cert.Proof

open Idealize.ShloMosaic Idealize.SL.Sem

/-- The word-level kernel runs and keeps its arguments: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.RefRun.run (F := Ideal) m ρ)

/-- The ideal pass rewrote nothing. -/
theorem preserves : Cert.preserves_Kernel_KernelIdeal := trivial

/-- From memories that agree on the arguments both programs end with the result at one function of the
    arguments: the kernel's array assembled from its blocks, the reference's line of operations read back. -/
theorem algebraic : Cert.algebraic_KernelIdeal_ReferenceIdeal := by
  intro m ρ m' ρ' _ hagree
  refine ⟨fun c => Cert.RefCore.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
    Cert.KerArray.run m ρ, ?_⟩
  refine (θ_run Cert.ReferenceIdeal.defs _ _).mono (fun _ h c => ⟨(h c).1.trans ?_, (h c).2⟩)
    (Cert.RefRun.run (F := Ideal) m' ρ')
  obtain ⟨h0, h1, -, h3, h4, h5, h6, h7⟩ := hagree c
  rw [h0, h1, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
